-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S32000 : Shape := ⟨1, ![32000]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S32000 : S_.BroadcastsInDim S32000 (![] : Fin 0 → Fin S32000.rank)
  reducesTo_S32000_S_d0 : S32000.ReducesTo [0] S_
  bcast_S_S8192 : S_.BroadcastsInDim S8192 (![] : Fin 0 → Fin S8192.rank)
  reducesTo_S8192_S_d0 : S8192.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8192x32000 .f32) (main_arg1 : IVec S8192 32) (main_arg2 : FVec F S32000 .f32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_v4 : FVec F S32000 .f32 := Host.absf main_arg2
  let main_cst_0 : FVec F S_ .f32 := constant S_ .f32 0x7F800000#32
  let main_v5 : FVec F S32000 .f32 := broadcastInDim S32000 ![] bcast_S_S32000 main_cst_0
  let main_v6 : IVec S32000 1 := cmpf .olt main_v4 main_v5
  let main_c_1 : IVec S_ 1 := constantI S_ 1 1#1
  let main_v7 : IVec S_ 1 := (fun x v => Host.reduce IntOp.andi x v reducesTo_S32000_S_d0 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg1 main_v9
  let main_c_3 : IVec S_ 1 := constantI S_ 1 1#1
  let main_v11 : IVec S_ 1 := (fun x v => Host.reduce IntOp.andi x v reducesTo_S8192_S_d0 h_S_) main_v10 main_c_3
  let main_v12 : IVec S_ 1 := andi main_v8 main_v11
  let main_c_4 : IVec S_ 32 := constantI S_ 32 32000#32
  let main_v13 : IVec S8192 32 := broadcastInDim S8192 ![] bcast_S_S8192 main_c_4
  let main_v14 : IVec S8192 1 := cmpi .slt main_arg1 main_v13
  let main_c_5 : IVec S_ 1 := constantI S_ 1 1#1
  let main_v15 : IVec S_ 1 := (fun x v => Host.reduce IntOp.andi x v reducesTo_S8192_S_d0 h_S_) main_v14 main_c_5
  fn_part1 (F := F) main_v12 main_v15
-- ==== Kernel.lean ====
abbrev S8192x32000 : Shape := ⟨2, ![8192, 32000]⟩
abbrev S8192 : Shape := ⟨1, ![8192]⟩
abbrev S32000 : Shape := ⟨1, ![32000]⟩
abbrev S8192x1 : Shape := ⟨2, ![8192, 1]⟩
abbrev S_ : Shape := ⟨0, ![]⟩
abbrev S512x6400 : Shape := ⟨2, ![512, 6400]⟩
abbrev S512x1 : Shape := ⟨2, ![512, 1]⟩
abbrev S512 : Shape := ⟨1, ![512]⟩

abbrev nBuf : Space → Nat
  | .hbm => 19
  | .vmem => 11
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S32000, .f32⟩
  | .hbm, ⟨3, _⟩ => ⟨S8192x1, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S512x6400, .f32⟩
  | .local _ .vmem, ⟨1, _⟩ => ⟨S512x6400, .f32⟩
  | .local _ .vmem, ⟨2, _⟩ => ⟨S512x1, .i32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c4_i32 : BitVec 32 := 4#32
  let v42 : BitVec 1 := Scalar.cmpi .eq arg1 c4_i32
  let v43 : BitVec 32 := Scalar.extui v42
  let c0_i32_21 : BitVec 32 := 0#32
  let v44 : BitVec 1 := Scalar.cmpi .ne v43 c0_i32_21
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8192_S8192x1 : S8192.ShapeCasts S8192x1
  bcast_S_S8192 : S_.BroadcastsInDim S8192 (![] : Fin 0 → Fin S8192.rank)
  bcast_S8192_S8192x1_0 : S8192.BroadcastsInDim S8192x1 (![0] : Fin 1 → Fin S8192x1.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x6400_S512x6400_0_0 : ∀ a, (![0, 0] : Fin 2 → Nat) a + S512x6400.size a ≤ S512x6400.size a
  h_S512x6400 : 0 < S512x6400.numel
  reduces_S512x6400_S512 : S512x6400.Reduces [1] S512
  shapeCasts_S512_S512x1 : S512.ShapeCasts S512x1
  broadcasts_S512x1_S512x6400 : S512x1.Broadcasts S512x6400
  iota_S512x6400_d1_w32 : S512x6400.Iotas .tc 32 [1]
  reducesTo_S8192x1_S_d0_1 : S8192x1.ReducesTo [0, 1] S_
  h_S_ : 0 < S_.numel
  gather_S32000_S8192x1_S8192_n_0_n_n_0_1_1_wf : GatherDims.WF S32000 S8192x1 S8192 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x6400.size a ≤ S8192x32000.size a
  hwx0_0 : ∀ i : grid0.Coords, EltTy.bits .f32 = 32 ∨ (Rect.block (s := S8192x32000) S512x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)

variable [Facts₀]

def gather_S32000_S8192x1_S8192_n_0_n_n_0_1_1 : GatherDims S32000 S8192x1 S8192 where
  offsetDims := []
  collapsedSliceDims := [0]
  operandBatchingDims := []
  startIndicesBatchingDims := []
  startIndexMap := [0]
  indexVectorDim := 1
  sliceSizes := ![1]
  wf := gather_S32000_S8192x1_S8192_n_0_n_n_0_1_1_wf

abbrev win0_0 : Pipeline.Window sig grid0 :=
  Pipeline.Window.ofSpec (Memref.whole main_arg0) S512x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x32000 : Shape := ⟨2, ![8192, 32000]⟩
abbrev S8192 : Shape := ⟨1, ![8192]⟩
abbrev S32000 : Shape := ⟨1, ![32000]⟩
abbrev S_ : Shape := ⟨0, ![]⟩
abbrev S8192x1 : Shape := ⟨2, ![8192, 1]⟩
abbrev S8192x2 : Shape := ⟨2, ![8192, 2]⟩

abbrev nBuf : Space → Nat
  | .hbm => 60
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S32000, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S8192x32000, .f32⟩
  | .hbm, ⟨10, _⟩ => ⟨S8192x32000, .f32⟩
  | .hbm, ⟨11, _⟩ => ⟨S8192x32000, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x1, .f32⟩
  | .hbm, ⟨16, _⟩ => ⟨S8192x32000, .f32⟩
  | .hbm, ⟨17, _⟩ => ⟨S8192x32000, .f32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S8192x1, .i32⟩
  | .hbm, ⟨35, _⟩ => ⟨S8192x2, .i32⟩
  | .hbm, ⟨36, _⟩ => ⟨S8192, .f32⟩
  | .hbm, ⟨37, _⟩ => ⟨S8192, .f32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_cst_7 : Ref sig .tc := ⟨.hbm, 58, rfl⟩
abbrev main_v32 : Ref sig .tc := ⟨.hbm, 59, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  concatenates_S8192x1_S8192x1_S8192x2_d1 : Shape.Concatenates [S8192x1, S8192x1] S8192x2 1
  reducesTo_S8192_S_d0 : S8192.ReducesTo [0] S_
  gather_S8192x32000_S8192x2_S8192_n_01_n_n_01_1_11_wf : GatherDims.WF S8192x32000 S8192x2 S8192 [] [0, 1] [] [0, 1] [] 1 ![1, 1]
  gather_S32000_S8192x1_S8192_n_0_n_n_0_1_1_wf : GatherDims.WF S32000 S8192x1 S8192 [] [0] [] [0] [] 1 ![1]

variable [Facts₀]

def gather_S8192x32000_S8192x2_S8192_n_01_n_n_01_1_11 : GatherDims S8192x32000 S8192x2 S8192 where
  offsetDims := []
  collapsedSliceDims := [0, 1]
  operandBatchingDims := []
  startIndicesBatchingDims := []
  startIndexMap := [0, 1]
  indexVectorDim := 1
  sliceSizes := ![1, 1]
  wf := gather_S8192x32000_S8192x2_S8192_n_01_n_n_01_1_11_wf
def gather_S32000_S8192x1_S8192_n_0_n_n_0_1_1 : GatherDims S32000 S8192x1 S8192 where
  offsetDims := []
  collapsedSliceDims := [0]
  operandBatchingDims := []
  startIndicesBatchingDims := []
  startIndexMap := [0]
  indexVectorDim := 1
  sliceSizes := ![1]
  wf := gather_S32000_S8192x1_S8192_n_0_n_n_0_1_1_wf

class Facts : Prop extends Facts₀ where

variable [Facts]
-- ==== Proof.Spec.lean ====
/-
  The mathematics both programs compute, stated once over the extended reals, with no program in sight.

  One row of logits `x : Fin 32000 → EReal`, a class `t` and a weight `w` give the focal loss of the row,
  `-w · (1 - p)² · log p` with `log p = x t - max x - log (∑ exp (x - max x))` (`rowLoss`); the result is the mean of the
  8192 rows' losses (`G`).  The kernel reaches the row's maximum, the sum of exponentials and the class's logit tile by
  tile (five tiles of 6400 columns): after the tiles `0 … k` it holds the maximum over the columns seen so far
  (`mUpto`), the sum of `exp (x - that maximum)` over them (`lUpto`) and the class's logit if its column has been seen,
  `-∞` otherwise (`tUpto`); one tile's update is `stepM` / `stepL` / `stepT`, and its closing arithmetic is `lossK`.
-/
import Idealize.ShloMosaic.PureOps.Ideal
import Idealize.ShloMosaic.Lib.ValueIdx

noncomputable section

open scoped BigOperators

namespace Cert.Focal

open Idealize.ShloMosaic Idealize.ShloMosaic.ValueIdx

/-! ## One tile of one row -/

/-- The maximum of a tile's row, from `-∞`. -/
def rmax {n : Nat} (v : Fin n → EReal) : EReal := (Finset.univ : Finset (Fin n)).fold max ⊥ v

/-- The sum over a tile's row of `exp (v - μ)`. -/
def rsumexp {n : Nat} (v : Fin n → EReal) (μ : EReal) : EReal := ∑ j : Fin n, Ideal.exp (v j - μ)

/-- The maximum over the columns of a tile's row that `hit` marks, `-∞` if it marks none: the masked selection. -/
def rsel {n : Nat} (v : Fin n → EReal) (hit : Fin n → Prop) [DecidablePred hit] : EReal :=
  (Finset.univ : Finset (Fin n)).fold max ⊥ (fun j => if hit j then v j else ⊥)

/-- The running maximum after one more tile. -/
def stepM {n : Nat} (m0 : EReal) (v : Fin n → EReal) : EReal := max m0 (rmax v)

/-- The running sum of exponentials after one more tile: the old sum rescaled to the new maximum, plus the tile's. -/
def stepL {n : Nat} (m0 l0 : EReal) (v : Fin n → EReal) : EReal :=
  l0 * Ideal.exp (m0 - stepM m0 v) + rsumexp v (stepM m0 v)

/-- The running selected logit after one more tile. -/
def stepT {n : Nat} (t0 : EReal) (v : Fin n → EReal) (hit : Fin n → Prop) [DecidablePred hit] : EReal :=
  max t0 (rsel v hit)

/-- Column `j` of tile `k` is column `t` of the row. -/
def hitAt (k t : Nat) : Fin 6400 → Prop := fun j => 6400 * k + j.val = t

instance (k t : Nat) : DecidablePred (hitAt k t) := fun j => Nat.decEq (6400 * k + j.val) t

/-- The kernel's closing arithmetic on a row's selected logit `xt`, maximum `m`, sum `l` and weight `w`:
    `log p` clamped at `0` from above, `1 - p` clamped at `0` from below. -/
def lossK (xt m l w : EReal) : EReal :=
  (((0 - w) * max (1 - Ideal.exp (min (xt - m - Ideal.log l) 0)) 0)
      * max (1 - Ideal.exp (min (xt - m - Ideal.log l) 0)) 0)
    * min (xt - m - Ideal.log l) 0

/-! ## One whole row -/

/-- Column `j` of tile `k`. -/
def col (k : Fin 5) (j : Fin 6400) : Fin 32000 := ⟨6400 * k.val + j.val, by have := k.isLt; have := j.isLt; omega⟩

/-- Tile `k` of a row. -/
def tile (x : Fin 32000 → EReal) (k : Fin 5) : Fin 6400 → EReal := fun j => x (col k j)

/-- The columns of the tiles `0 … k`. -/
def upto (k : Nat) : Finset (Fin 32000) := Finset.univ.filter fun c => c.val < 6400 * (k + 1)

/-- The maximum over the columns of the tiles `0 … k`. -/
def mUpto (x : Fin 32000 → EReal) (k : Nat) : EReal := (upto k).sup x

/-- The sum of `exp (x - mUpto x k)` over the columns of the tiles `0 … k`. -/
def lUpto (x : Fin 32000 → EReal) (k : Nat) : EReal := ∑ c ∈ upto k, Ideal.exp (x c - mUpto x k)

/-- The logit at column `t` if that column lies in the tiles `0 … k`, else `-∞`. -/
def tUpto (x : Fin 32000 → EReal) (t : Nat) (k : Nat) : EReal := ((upto k).filter fun c => c.val = t).sup x

/-- The log-probability of class `t` as the reference writes it: the maximum taken against `-∞` once more, the sum from `0`. -/
def lsm (x : Fin 32000 → EReal) (t : Fin 32000) : EReal :=
  (x t - max ⊥ (rmax x)) - Ideal.log (0 + rsumexp x (max ⊥ (rmax x)))

/-- THE ROW'S LOSS: `-w · (1 - p)² · log p`, `log p = x t - max x - log ∑ exp (x - max x)`. -/
def rowLoss (x : Fin 32000 → EReal) (t : Fin 32000) (w : EReal) : EReal :=
  ((-w) * ((1 - Ideal.exp (x t - Finset.univ.sup x - Ideal.log (∑ c, Ideal.exp (x c - Finset.univ.sup x))))
      * (1 - Ideal.exp (x t - Finset.univ.sup x - Ideal.log (∑ c, Ideal.exp (x c - Finset.univ.sup x))))))
    * (x t - Finset.univ.sup x - Ideal.log (∑ c, Ideal.exp (x c - Finset.univ.sup x)))

/-! ## The whole result -/

/-- A class word read as a column: itself when it is one (`< 32000`), the last column otherwise. -/
def colOf (b : BitVec 32) : Fin 32000 := ⟨min b.toNat 31999, by omega⟩

theorem colOf_val {b : BitVec 32} (h : b.toNat < 32000) : (colOf b).val = b.toNat := by
  show min b.toNat 31999 = b.toNat; omega

/-- Row `R` of the logits. -/
def rowOf (X : (⟨2, ![8192, 32000]⟩ : Shape).Idx → EReal) (R : Fin 8192) : Fin 32000 → EReal := fun c => X (ix2 R c)

/-- Row `R`'s loss from the three arrays. -/
def rowLossAt (X : (⟨2, ![8192, 32000]⟩ : Shape).Idx → EReal) (T : (⟨1, ![8192]⟩ : Shape).Idx → BitVec 32)
    (W : (⟨1, ![32000]⟩ : Shape).Idx → EReal) (R : Fin 8192) : EReal :=
  rowLoss (rowOf X R) (colOf (T (ix1 R))) (W (ix1 (colOf (T (ix1 R)))))

/-- THE RESULT: the mean of the rows' losses, as both programs take it — the sum from `0`, divided by `8192`. -/
def G (X : (⟨2, ![8192, 32000]⟩ : Shape).Idx → EReal) (T : (⟨1, ![8192]⟩ : Shape).Idx → BitVec 32)
    (W : (⟨1, ![32000]⟩ : Shape).Idx → EReal) : (⟨0, ![]⟩ : Shape).Idx → EReal :=
  fun _ => Ideal.div (0 + ∑ R : Fin 8192, rowLossAt X T W R) (Ideal.ofBits .f32 0x46000000#32)

end Cert.Focal

end
-- ==== Proof.PreDecode.lean ====
import proofs.«416310_j69758858822546_3_alg».proof.Proof.Spec
import proofs.«416310_j69758858822546_3_alg».proof.Pre_finite_inputs
import Idealize.ShloMosaic.Lib.ReduceAll
import Idealize.ShloMosaic.Lib.StableHlo.Predicate

noncomputable section

open scoped BigOperators

namespace Cert.Focal

open Idealize.ShloMosaic Idealize.ShloMosaic.ValueIdx

/-- The pattern 0x7F800000 (sign clear, exponent all ones, fraction zero) denotes +∞. -/
private theorem inf_eq_top : (FloatOps.ofBits (F := Ideal) .f32 0x7F800000#32 : EReal) = ⊤ := by
  show Ideal.ofBits .f32 0x7F800000#32 = ⊤
  simp [Ideal.ofBits, Ideal.ieee]

/-- |x| < +∞ says x is neither infinity: x is a real number. -/
private theorem real_of_abs_lt_top (x : EReal) (h : Ideal.cmp .olt (max x (-x)) (Ideal.ofBits .f32 0x7F800000#32) = 1#1) :
    ∃ r : ℝ, x = (r : EReal) := by
  rw [show Ideal.ofBits .f32 0x7F800000#32 = (⊤ : EReal) from inf_eq_top] at h
  simp only [Ideal.cmp, StableHlo.Predicate.ofBool_eq_one_iff, decide_eq_true_eq] at h
  induction x using EReal.rec with
  | bot => simp at h
  | coe r => exact ⟨r, rfl⟩
  | top => simp at h

/-- A word in [0, 32000) signed is below 32000 unsigned. -/
private theorem toNat_lt_of_signed (w : BitVec 32) (h0 : IntOp.cmpi .sge w 0#32 = 1#1)
    (h1 : IntOp.cmpi .slt w 32000#32 = 1#1) : w.toNat < 32000 := by
  unfold IntOp.cmpi at h0 h1
  rw [StableHlo.Predicate.ofBool_eq_one_iff] at h0 h1
  simp only [BitVec.slt, BitVec.sle, decide_eq_true_eq] at h0 h1
  have h32 := w.isLt
  have e0 : (0#32 : BitVec 32).toInt = 0 := by decide
  have e1 : (32000#32 : BitVec 32).toInt = 32000 := by decide
  rw [e0] at h0
  rw [e1] at h1
  rw [BitVec.toInt_eq_toNat_cond] at h0 h1
  split at h0 <;> omega

private instance : Subsingleton Cert.Pre_finite_inputs.S_.Idx := ⟨fun a b => funext fun d => d.elim0⟩

/-- What the precondition says of the three arrays: every logit and every weight is a real number, and every class is a
    column (read unsigned, below 32000: the signed tests `0 ≤ t` and `t < 32000` together). -/
theorem decode [Cert.Pre_finite_inputs.Facts]
    (X : (⟨2, ![8192, 32000]⟩ : Shape).Idx → EReal) (T : (⟨1, ![8192]⟩ : Shape).Idx → BitVec 32)
    (W : (⟨1, ![32000]⟩ : Shape).Idx → EReal)
    (h : Cert.Pre_finite_inputs.fn (F := Ideal) X T W = fun _ => 1#1) :
    (∀ i, ∃ r : ℝ, X i = (r : EReal)) ∧ (∀ i, ∃ r : ℝ, W i = (r : EReal)) ∧ (∀ i, (T i).toNat < 32000) := by
  have e := congrFun h ValueIdx.ix0
  dsimp only [Cert.Pre_finite_inputs.fn, Cert.Pre_finite_inputs.fn_part1] at e
  -- the four conjuncts of the printed chain, each a reduction by conjunction that came out 1
  simp only [andi, IntOp.andi_eq_one] at e
  obtain ⟨⟨⟨hX, hW⟩, hT0⟩, hT1⟩ := e
  have aX := Host.reduce_andi_all _ _ _ _ _ hX
  have aW := Host.reduce_andi_all _ _ _ _ _ hW
  have a0 := Host.reduce_andi_all _ _ _ _ _ hT0
  have a1 := Host.reduce_andi_all _ _ _ _ _ hT1
  exact ⟨fun i => real_of_abs_lt_top (X i) (aX i), fun i => real_of_abs_lt_top (W i) (aW i),
    fun i => toNat_lt_of_signed (T i) (a0 i) (a1 i)⟩

end Cert.Focal

end
-- ==== Proof.RowMathFinal.lean ====
import proofs.«416310_j69758858822546_3_alg».proof.Proof.Spec

noncomputable section

open scoped BigOperators

namespace Cert.Focal

open Idealize.ShloMosaic

/-- The coercion of a finite sum of reals into the extended reals is the sum of the coercions. -/
private theorem coe_sum_real {ι : Type} (s : Finset ι) (f : ι → ℝ) :
    ∑ c ∈ s, ((f c : ℝ) : EReal) = ((∑ c ∈ s, f c : ℝ) : EReal) := by
  classical
  refine Finset.induction_on s ?_ ?_
  · rw [Finset.sum_empty, Finset.sum_empty, EReal.coe_zero]
  · intro a s ha ih
    rw [Finset.sum_insert ha, Finset.sum_insert ha, ih, EReal.coe_add]

/-- A row of reals has a real maximum, which is attained; so the sum of `exp (x - max)` is at least `1`. -/
private theorem row_facts (xr : Fin 32000 → ℝ) :
    ∃ M : ℝ, Finset.univ.sup (fun c => (xr c : EReal)) = (M : EReal) ∧ (∀ c, xr c ≤ M) ∧
      1 ≤ ∑ c, Real.exp (xr c - M) := by
  obtain ⟨c₀, -, hc₀⟩ := Finset.exists_max_image (Finset.univ : Finset (Fin 32000)) xr
    ⟨⟨0, by norm_num⟩, Finset.mem_univ _⟩
  refine ⟨xr c₀, ?_, fun c => hc₀ c (Finset.mem_univ c), ?_⟩
  · refine le_antisymm (Finset.sup_le fun c _ => ?_)
      (Finset.le_sup (f := fun c => (xr c : EReal)) (Finset.mem_univ c₀))
    exact EReal.coe_le_coe_iff.mpr (hc₀ c (Finset.mem_univ c))
  · calc (1 : ℝ) = Real.exp (xr c₀ - xr c₀) := by rw [sub_self, Real.exp_zero]
      _ ≤ ∑ c, Real.exp (xr c - xr c₀) :=
        Finset.single_le_sum (f := fun c => Real.exp (xr c - xr c₀)) (fun c _ => (Real.exp_pos _).le)
          (Finset.mem_univ c₀)

/-- The log-probability of a real row is the real `x t - M - log L`. -/
private theorem logp_real (xr : Fin 32000 → ℝ) (t : Fin 32000) (M : ℝ)
    (hM : Finset.univ.sup (fun c => (xr c : EReal)) = (M : EReal)) (hL : 0 < ∑ c, Real.exp (xr c - M)) :
    (xr t : EReal) - Finset.univ.sup (fun c => (xr c : EReal))
        - Ideal.log (∑ c, Ideal.exp ((xr c : EReal) - Finset.univ.sup (fun c => (xr c : EReal))))
      = ((xr t - M - Real.log (∑ c, Real.exp (xr c - M)) : ℝ) : EReal) := by
  rw [hM]
  have hsum : ∑ c, Ideal.exp ((xr c : EReal) - (M : EReal)) = ((∑ c, Real.exp (xr c - M) : ℝ) : EReal) := by
    rw [← coe_sum_real]
    exact Finset.sum_congr rfl fun c _ => rfl
  rw [hsum, Ideal.log_coe, if_neg (not_le.mpr hL), EReal.coe_sub, EReal.coe_sub]

/-- The log-probability of a real row is at most `0`. -/
private theorem logp_nonpos (xr : Fin 32000 → ℝ) (t : Fin 32000) (M : ℝ) (hle : ∀ c, xr c ≤ M)
    (hL1 : 1 ≤ ∑ c, Real.exp (xr c - M)) : xr t - M - Real.log (∑ c, Real.exp (xr c - M)) ≤ 0 := by
  have h1 := hle t
  have h2 := Real.log_nonneg hL1
  linarith

/-- `-w · (1 - e) · (1 - e) · lp` over the extended reals, for reals. -/
private theorem coe_loss (wr e lp : ℝ) :
    ((-(wr : EReal)) * ((1 - (e : EReal)) * (1 - (e : EReal)))) * (lp : EReal)
      = (((-wr) * ((1 - e) * (1 - e)) * lp : ℝ) : EReal) := by
  rw [EReal.coe_mul, EReal.coe_mul, EReal.coe_mul, EReal.coe_neg, EReal.coe_sub, EReal.coe_one]

/-- The clamped closing arithmetic at a real log-probability `lp ≤ 0`: the clamps do nothing. -/
private theorem lossK_real (wr lp : ℝ) (hlp : lp ≤ 0) (xt m l : EReal) (h : xt - m - Ideal.log l = (lp : EReal)) :
    lossK xt m l (wr : EReal) = (((-wr) * ((1 - Real.exp lp) * (1 - Real.exp lp)) * lp : ℝ) : EReal) := by
  unfold lossK
  rw [h]
  have h0 : min (lp : EReal) 0 = (lp : EReal) :=
    min_eq_left (by rw [← EReal.coe_zero, EReal.coe_le_coe_iff]; exact hlp)
  have he : Real.exp lp ≤ 1 := by rw [← Real.exp_zero]; exact Real.exp_le_exp.mpr hlp
  have h1 : max ((1 : EReal) - (Real.exp lp : EReal)) 0 = ((1 - Real.exp lp : ℝ) : EReal) := by
    rw [EReal.coe_sub, EReal.coe_one]
    refine max_eq_left ?_
    rw [← EReal.coe_one, ← EReal.coe_sub, ← EReal.coe_zero, EReal.coe_le_coe_iff]
    linarith
  rw [h0, Ideal.exp_coe, h1, zero_sub, ← coe_loss, EReal.coe_sub, EReal.coe_one, mul_assoc (-(wr : EReal))]

/-- The square as a real power. -/
private theorem pow_two_real (d : ℝ) : Ideal.pow (d : EReal) ((2 : ℝ) : EReal) = ((d * d : ℝ) : EReal) := by
  rw [Ideal.pow_coe_coe]
  show ((d ^ (2 : ℝ) : ℝ) : EReal) = _
  rw [Real.rpow_two, sq]

private theorem upto_four : upto 4 = Finset.univ := by
  unfold upto
  exact Finset.filter_true_of_mem fun c _ => by have := c.isLt; omega

private theorem tUpto_four (x : Fin 32000 → EReal) (t : Fin 32000) : tUpto x t.val 4 = x t := by
  unfold tUpto
  rw [upto_four]
  have hf : (Finset.univ.filter fun c : Fin 32000 => c.val = t.val) = {t} := by
    ext c
    simp only [Finset.mem_filter, Finset.mem_univ, true_and, Finset.mem_singleton]
    exact Fin.val_inj
  rw [hf, Finset.sup_singleton]

private theorem rmax_eq_sup {n : Nat} (v : Fin n → EReal) : rmax v = Finset.univ.sup v := rfl

variable (x : Fin 32000 → EReal)

theorem lossK_final (hx : ∀ c, ∃ r : ℝ, x c = (r : EReal)) (w : EReal) (hw : ∃ r : ℝ, w = (r : EReal)) (t : Fin 32000) :
    lossK (tUpto x t.val 4) (mUpto x 4) (lUpto x 4) w = rowLoss x t w := by
  choose xr hxr using hx
  obtain ⟨wr, rfl⟩ := hw
  obtain rfl : x = fun c => (xr c : EReal) := funext hxr
  obtain ⟨M, hM, hle, hL1⟩ := row_facts xr
  have hL : 0 < ∑ c, Real.exp (xr c - M) := lt_of_lt_of_le one_pos hL1
  have hlp := logp_real xr t M hM hL
  have hneg := logp_nonpos xr t M hle hL1
  rw [lossK_real wr _ hneg _ _ _ (by rw [tUpto_four]; unfold lUpto mUpto; rw [upto_four]; exact hlp)]
  unfold rowLoss
  rw [hlp, Ideal.exp_coe, coe_loss]

theorem lossR_eq (hx : ∀ c, ∃ r : ℝ, x c = (r : EReal)) (w : EReal) (hw : ∃ r : ℝ, w = (r : EReal)) (t : Fin 32000) :
    ((-w) * Ideal.pow (1 - Ideal.exp (lsm x t)) ((2 : ℝ) : EReal)) * lsm x t = rowLoss x t w := by
  choose xr hxr using hx
  obtain ⟨wr, rfl⟩ := hw
  obtain rfl : x = fun c => (xr c : EReal) := funext hxr
  obtain ⟨M, hM, hle, hL1⟩ := row_facts xr
  have hL : 0 < ∑ c, Real.exp (xr c - M) := lt_of_lt_of_le one_pos hL1
  have hlp := logp_real xr t M hM hL
  have hlsm : lsm (fun c => (xr c : EReal)) t
      = ((xr t - M - Real.log (∑ c, Real.exp (xr c - M)) : ℝ) : EReal) := by
    unfold lsm rsumexp
    rw [max_bot_left, zero_add, rmax_eq_sup]
    exact hlp
  unfold rowLoss
  rw [hlsm, hlp, Ideal.exp_coe, ← EReal.coe_one, ← EReal.coe_sub, pow_two_real, EReal.coe_mul]

end Cert.Focal

end
-- ==== Proof.RowMathMax.lean ====
import proofs.«416310_j69758858822546_3_alg».proof.Proof.Spec
import Mathlib.Data.Finset.Lattice.Fold
import Mathlib.Data.Finset.Image

noncomputable section

open scoped BigOperators

namespace Cert.Focal

open Idealize.ShloMosaic

variable (x : Fin 32000 → EReal)

/-! ## Folds of `max` are suprema -/

/-- Folding `max` from `-∞` over a finite set is the supremum over it. -/
private theorem fold_max_eq_sup {ι : Type} (s : Finset ι) (v : ι → EReal) :
    s.fold max ⊥ v = s.sup v := by
  classical
  induction s using Finset.induction_on with
  | empty => rw [Finset.fold_empty, Finset.sup_empty]
  | insert a s ha ih => rw [Finset.fold_insert ha, Finset.sup_insert, ih]

/-- A tile's maximum is the supremum of its row. -/
private theorem rmax_eq_sup {n : Nat} (v : Fin n → EReal) : rmax v = Finset.univ.sup v :=
  fold_max_eq_sup _ _

/-- The masked selection is the supremum over the marked columns. -/
private theorem rsel_eq_sup {n : Nat} (v : Fin n → EReal) (hit : Fin n → Prop) [DecidablePred hit] :
    rsel v hit = (Finset.univ.filter hit).sup v := by
  unfold rsel
  rw [fold_max_eq_sup, Finset.sup_ite, Finset.sup_bot, sup_bot_eq]

/-! ## The columns of the tiles -/

private theorem mem_upto (k : Nat) (c : Fin 32000) : c ∈ upto k ↔ c.val < 6400 * (k + 1) := by
  unfold upto
  rw [Finset.mem_filter]
  exact ⟨fun h => h.2, fun h => ⟨Finset.mem_univ _, h⟩⟩

/-- The columns of tile `k` are those from `6400 k` up to `6400 (k + 1)`. -/
private theorem mem_image_col (k : Fin 5) (c : Fin 32000) :
    c ∈ (Finset.univ : Finset (Fin 6400)).image (col k)
      ↔ 6400 * k.val ≤ c.val ∧ c.val < 6400 * (k.val + 1) := by
  rw [Finset.mem_image]
  constructor
  · rintro ⟨j, -, rfl⟩
    have hj := j.isLt
    show 6400 * k.val ≤ 6400 * k.val + j.val ∧ 6400 * k.val + j.val < 6400 * (k.val + 1)
    omega
  · rintro ⟨h1, h2⟩
    refine ⟨⟨c.val - 6400 * k.val, by omega⟩, Finset.mem_univ _, ?_⟩
    apply Fin.ext
    show 6400 * k.val + (c.val - 6400 * k.val) = c.val
    omega

/-- The columns of the first tile. -/
private theorem upto_zero : upto 0 = (Finset.univ : Finset (Fin 6400)).image (col 0) := by
  ext c
  rw [mem_upto, mem_image_col]
  have h0 : (0 : Fin 5).val = 0 := rfl
  rw [h0]
  omega

/-- One more tile's columns. -/
private theorem upto_succ (k : Nat) (hk : k + 1 < 5) :
    upto (k + 1) = upto k ∪ (Finset.univ : Finset (Fin 6400)).image (col ⟨k + 1, hk⟩) := by
  ext c
  rw [Finset.mem_union, mem_upto, mem_upto, mem_image_col]
  show _ ↔ _ ∨ (6400 * (k + 1) ≤ c.val ∧ c.val < 6400 * (k + 1 + 1))
  omega

/-- Among the columns of tile `k`, the one equal to `t` is the image of the marked one. -/
private theorem filter_image_col (k : Fin 5) (t : Nat) :
    ((Finset.univ : Finset (Fin 6400)).image (col k)).filter (fun c => c.val = t)
      = ((Finset.univ : Finset (Fin 6400)).filter (hitAt k.val t)).image (col k) := by
  rw [Finset.filter_image]
  rfl

theorem mUpto_zero : stepM ⊥ (tile x 0) = mUpto x 0 := by
  unfold stepM mUpto
  rw [rmax_eq_sup, upto_zero, Finset.sup_image, max_bot_left]
  rfl

theorem mUpto_succ (k : Nat) (hk : k + 1 < 5) : stepM (mUpto x k) (tile x ⟨k + 1, hk⟩) = mUpto x (k + 1) := by
  unfold stepM mUpto
  rw [rmax_eq_sup, upto_succ k hk, Finset.sup_union, Finset.sup_image]
  rfl

theorem tUpto_zero (t : Nat) : stepT ⊥ (tile x 0) (hitAt 0 t) = tUpto x t 0 := by
  unfold stepT tUpto
  rw [rsel_eq_sup, upto_zero, filter_image_col, Finset.sup_image, max_bot_left]
  rfl

theorem tUpto_succ (t k : Nat) (hk : k + 1 < 5) :
    stepT (tUpto x t k) (tile x ⟨k + 1, hk⟩) (hitAt (k + 1) t) = tUpto x t (k + 1) := by
  unfold stepT tUpto
  rw [rsel_eq_sup, upto_succ k hk, Finset.filter_union, filter_image_col, Finset.sup_union,
    Finset.sup_image]
  rfl

end Cert.Focal

end
-- ==== Proof.RowMathSum.lean ====
import proofs.«416310_j69758858822546_3_alg».proof.Proof.Spec

noncomputable section

open scoped BigOperators

namespace Cert.Focal

open Idealize.ShloMosaic

namespace SumAux

/-- The columns of tile `k`, as a set of columns of the row. -/
def tcols (k : Fin 5) : Finset (Fin 32000) := Finset.univ.image (col k)

theorem col_injective (k : Fin 5) : Function.Injective (col k) := by
  intro a b h
  have h' := congrArg Fin.val h
  simp only [col] at h'
  exact Fin.ext (by omega)

/-- The first tile's columns are exactly the columns seen after tile `0`. -/
theorem upto_zero : upto 0 = tcols 0 := by
  ext c
  simp only [upto, tcols, Finset.mem_filter, Finset.mem_univ, true_and, Finset.mem_image]
  constructor
  · intro h
    refine ⟨⟨c.val, by omega⟩, Fin.ext ?_⟩
    simp only [col]
    show 6400 * 0 + c.val = c.val
    omega
  · rintro ⟨j, rfl⟩
    have := j.isLt
    show 6400 * 0 + j.val < 6400 * (0 + 1)
    omega

/-- The columns seen after tile `k + 1` are those seen after tile `k` together with tile `k + 1`'s. -/
theorem upto_succ (k : Nat) (hk : k + 1 < 5) : upto (k + 1) = upto k ∪ tcols ⟨k + 1, hk⟩ := by
  ext c
  simp only [upto, tcols, Finset.mem_union, Finset.mem_filter, Finset.mem_univ, true_and, Finset.mem_image]
  constructor
  · intro h
    by_cases h1 : c.val < 6400 * (k + 1)
    · exact Or.inl h1
    · refine Or.inr ⟨⟨c.val - 6400 * (k + 1), by omega⟩, Fin.ext ?_⟩
      show 6400 * (k + 1) + (c.val - 6400 * (k + 1)) = c.val
      omega
  · rintro (h | ⟨j, rfl⟩)
    · omega
    · have := j.isLt
      show 6400 * (k + 1) + j.val < 6400 * (k + 1 + 1)
      omega

theorem upto_disjoint (k : Nat) (hk : k + 1 < 5) : Disjoint (upto k) (tcols ⟨k + 1, hk⟩) := by
  rw [Finset.disjoint_left]
  intro c hc hc'
  simp only [upto, Finset.mem_filter, Finset.mem_univ, true_and] at hc
  simp only [tcols, Finset.mem_image, Finset.mem_univ, true_and] at hc'
  obtain ⟨j, rfl⟩ := hc'
  have : 6400 * (k + 1) + j.val < 6400 * (k + 1) := hc
  omega

theorem upto_nonempty (k : Nat) : (upto k).Nonempty := by
  refine ⟨⟨0, by omega⟩, ?_⟩
  simp only [upto, Finset.mem_filter, Finset.mem_univ, true_and]
  show 0 < 6400 * (k + 1)
  omega

/-- A tile's maximum is the supremum of the row over the tile's columns. -/
theorem rmax_tile (x : Fin 32000 → EReal) (k : Fin 5) : rmax (tile x k) = (tcols k).sup x := by
  unfold tcols
  rw [Finset.sup_image]
  rfl

/-- A tile's sum of exponentials is the sum over the tile's columns. -/
theorem rsumexp_tile (x : Fin 32000 → EReal) (k : Fin 5) (μ : EReal) :
    rsumexp (tile x k) μ = ∑ c ∈ tcols k, Ideal.exp (x c - μ) := by
  unfold tcols rsumexp tile
  rw [Finset.sum_image (fun a _ b _ h => col_injective k h)]

theorem stepM_zero (x : Fin 32000 → EReal) : stepM ⊥ (tile x 0) = mUpto x 0 := by
  unfold stepM mUpto
  rw [rmax_tile, upto_zero, max_eq_right bot_le]

theorem stepM_succ (x : Fin 32000 → EReal) (k : Nat) (hk : k + 1 < 5) :
    stepM (mUpto x k) (tile x ⟨k + 1, hk⟩) = mUpto x (k + 1) := by
  unfold stepM mUpto
  rw [rmax_tile, upto_succ k hk, Finset.sup_union]

/-- Over real logits the running maximum is a real number. -/
theorem mUpto_real (x : Fin 32000 → EReal) (hx : ∀ c, ∃ r : ℝ, x c = (r : EReal)) (k : Nat) :
    ∃ M : ℝ, mUpto x k = (M : EReal) := by
  obtain ⟨i, _, hi⟩ := Finset.exists_mem_eq_sup (upto k) (upto_nonempty k) x
  obtain ⟨r, hr⟩ := hx i
  exact ⟨r, by unfold mUpto; rw [hi, hr]⟩

/-- The coercion of a finite sum of reals. -/
theorem coe_sum {ι : Type} (s : Finset ι) (f : ι → ℝ) :
    ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- Rescaling a sum of exponentials from the maximum `M` to the maximum `M'`:
    `(∑ exp (x - M)) · exp (M - M') = ∑ exp (x - M')`. -/
theorem rescale (s : Finset (Fin 32000)) (xr : Fin 32000 → ℝ) (M M' : ℝ) :
    (∑ c ∈ s, Ideal.exp ((xr c : EReal) - (M : EReal))) * Ideal.exp ((M : EReal) - (M' : EReal))
      = ∑ c ∈ s, Ideal.exp ((xr c : EReal) - (M' : EReal)) := by
  simp only [← EReal.coe_sub, Ideal.exp_coe]
  rw [← coe_sum, ← coe_sum, ← EReal.coe_mul, Finset.sum_mul]
  congr 1
  refine Finset.sum_congr rfl fun c _ => ?_
  rw [← Real.exp_add]
  congr 1
  ring

end SumAux

open SumAux

variable (x : Fin 32000 → EReal)

theorem lUpto_zero (hx : ∀ c, ∃ r : ℝ, x c = (r : EReal)) : stepL ⊥ 0 (tile x 0) = lUpto x 0 := by
  unfold stepL
  rw [stepM_zero, zero_mul, zero_add, rsumexp_tile]
  unfold lUpto
  rw [upto_zero]

theorem lUpto_succ (hx : ∀ c, ∃ r : ℝ, x c = (r : EReal)) (k : Nat) (hk : k + 1 < 5) :
    stepL (mUpto x k) (lUpto x k) (tile x ⟨k + 1, hk⟩) = lUpto x (k + 1) := by
  obtain ⟨M, hM⟩ := mUpto_real x hx k
  obtain ⟨M', hM'⟩ := mUpto_real x hx (k + 1)
  choose xr hxr using hx
  unfold stepL
  rw [stepM_succ x k hk, rsumexp_tile]
  unfold lUpto
  rw [upto_succ k hk, Finset.sum_union (upto_disjoint k hk), hM, hM']
  have h : (∑ c ∈ upto k, Ideal.exp (x c - (M : EReal))) * Ideal.exp ((M : EReal) - (M' : EReal))
      = ∑ c ∈ upto k, Ideal.exp (x c - (M' : EReal)) := by
    simp only [hxr]
    exact rescale (upto k) xr M M'
  rw [h]

end Cert.Focal

end
-- ==== Proof.KernelPieces.lean ====
/-
  What each control case of the kernel's body leaves in the three carried scratch buffers and in the output block, as
  values: the first column tile of a row tile (case A) resets the running maximum, sum and selected logit and then
  updates them with the tile; a middle tile (case B) updates what the tile before left; the last tile (case C) updates
  them and stores the rows' losses.  Each is one whole-buffer store, so what the buffer holds is that store's value.
-/
import proofs.«416310_j69758858822546_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.FocalPieces

open Cert.KernelIdeal Cert.KernelIdeal.Gen

variable {F : FTy → Type} [FloatOps F]

theorem hz : (![0, 0] : Fin 2 → Nat) = fun _ => 0 := funext fun a => by fin_cases a <;> rfl

/-- First tile: the running maximum is the tile's row maximum against the reset value. -/
theorem sA0 (c : Dev nD) (i : grid0.Coords) (a2 : Memref sig .tc .vmem S512x6400 .f32) (h2 : a2.IsWhole) (a3 : Memref sig .tc .vmem S512x1 .i32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (hc0 : cond0_0 i) (hc1 : ¬cond0_1 i) (x0 : Vec F S512x6400 .f32) (x1 : Vec F S512x1 .i32) (x2 : Vec F S512x1 .f32) :
    sout0_A_0 c i a2 h2 a3 h3 a4 h4 a5 h5 a6 h6 a7 h7 a8 h8 hc0 hc1 x0 x1 x2 = k0_pay8 x0 (k0_pay3 (F := F)) := by
  unfold sout0_A_0
  rw [View.read_writes_eq_canon _ _ _ (scover0_A_0 c i a2 h2 a3 h3 a4 h4 a5 h5 a6 h6 a7 h7 a8 h8 hc0 hc1 x0 x1 x2)]
  unfold kernelRun0_A
  dsimp only
  sl_unfold_words
  rw [View.canon_cons_unit_zero (S := S512x1) hz]
  simp only [View.readAt_eq_ld, h2.read_unread, h3.read_unread, h4.read_unread, h6.read_unread, h7.read_unread, h8.read_unread,
    View.ld_unit_zero (S := S512x6400) hz, View.ld_unit_zero (S := S512x1) hz, View.readCov_unit_zero (S := S512x1) _ hz]

/-- First tile: the running sum from the reset values. -/
theorem sA1 (c : Dev nD) (i : grid0.Coords) (a2 : Memref sig .tc .vmem S512x6400 .f32) (h2 : a2.IsWhole) (a3 : Memref sig .tc .vmem S512x1 .i32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (hc0 : cond0_0 i) (hc1 : ¬cond0_1 i) (x0 : Vec F S512x6400 .f32) (x1 : Vec F S512x1 .i32) (x2 : Vec F S512x1 .f32) :
    sout0_A_1 c i a2 h2 a3 h3 a4 h4 a5 h5 a6 h6 a7 h7 a8 h8 hc0 hc1 x0 x1 x2 = k0_pay7 x0 (k0_pay3 (F := F)) (k0_pay4 (F := F)) (k0_pay3 (F := F)) := by
  unfold sout0_A_1
  rw [View.read_writes_eq_canon _ _ _ (scover0_A_1 c i a2 h2 a3 h3 a4 h4 a5 h5 a6 h6 a7 h7 a8 h8 hc0 hc1 x0 x1 x2)]
  unfold kernelRun0_A
  dsimp only
  sl_unfold_words
  rw [View.canon_cons_unit_zero (S := S512x1) hz]
  simp only [View.readAt_eq_ld, h2.read_unread, h3.read_unread, h4.read_unread, h6.read_unread, h7.read_unread, h8.read_unread,
    View.ld_unit_zero (S := S512x6400) hz, View.ld_unit_zero (S := S512x1) hz, View.readCov_unit_zero (S := S512x1) _ hz]

/-- First tile: the running selected logit from the reset value. -/
theorem sA2 (c : Dev nD) (i : grid0.Coords) (a2 : Memref sig .tc .vmem S512x6400 .f32) (h2 : a2.IsWhole) (a3 : Memref sig .tc .vmem S512x1 .i32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (hc0 : cond0_0 i) (hc1 : ¬cond0_1 i) (x0 : Vec F S512x6400 .f32) (x1 : Vec F S512x1 .i32) (x2 : Vec F S512x1 .f32) :
    sout0_A_2 c i a2 h2 a3 h3 a4 h4 a5 h5 a6 h6 a7 h7 a8 h8 hc0 hc1 x0 x1 x2 = k0_pay1 (k0_pay9 i x0 x1) (k0_pay5 (F := F)) := by
  unfold sout0_A_2
  rw [View.read_writes_eq_canon _ _ _ (scover0_A_2 c i a2 h2 a3 h3 a4 h4 a5 h5 a6 h6 a7 h7 a8 h8 hc0 hc1 x0 x1 x2)]
  unfold kernelRun0_A
  dsimp only
  sl_unfold_words
  rw [View.canon_cons_unit_zero (S := S512x1) hz]
  simp only [View.readAt_eq_ld, h2.read_unread, h3.read_unread, h4.read_unread, h6.read_unread, h7.read_unread, h8.read_unread,
    View.ld_unit_zero (S := S512x6400) hz, View.ld_unit_zero (S := S512x1) hz, View.readCov_unit_zero (S := S512x1) _ hz]

/-- A middle tile: the running maximum over what the tile before left. -/
theorem sB0 (c : Dev nD) (i : grid0.Coords) (a2 : Memref sig .tc .vmem S512x6400 .f32) (h2 : a2.IsWhole) (a3 : Memref sig .tc .vmem S512x1 .i32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (hc0 : ¬cond0_0 i) (hc1 : ¬cond0_1 i) (x0 : Vec F S512x6400 .f32) (x1 : Vec F S512x1 .i32) (x2 : Vec F S512x1 .f32) (xs0 xs1 xs2 : Vec F S512x1 .f32) :
    sout0_B_0 c i a2 h2 a3 h3 a4 h4 a5 h5 a6 h6 a7 h7 a8 h8 hc0 hc1 x0 x1 x2 xs0 xs1 xs2 = k0_pay8 x0 xs0 := by
  unfold sout0_B_0
  rw [View.read_writes_eq_canon _ _ _ (scover0_B_0 c i a2 h2 a3 h3 a4 h4 a5 h5 a6 h6 a7 h7 a8 h8 hc0 hc1 x0 x1 x2 xs0 xs1 xs2)]
  unfold kernelRun0_B
  dsimp only
  sl_unfold_words
  rw [View.canon_unit_zero hz]
  simp only [View.readAt_eq_ld, h2.read_unread, h3.read_unread, h4.read_unread, h6.read_unread, h7.read_unread, h8.read_unread,
    View.ld_unit_zero (S := S512x6400) hz, View.ld_unit_zero (S := S512x1) hz, View.readCov_unit_zero (S := S512x1) _ hz]

/-- A middle tile: the running sum over what the tile before left. -/
theorem sB1 (c : Dev nD) (i : grid0.Coords) (a2 : Memref sig .tc .vmem S512x6400 .f32) (h2 : a2.IsWhole) (a3 : Memref sig .tc .vmem S512x1 .i32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (hc0 : ¬cond0_0 i) (hc1 : ¬cond0_1 i) (x0 : Vec F S512x6400 .f32) (x1 : Vec F S512x1 .i32) (x2 : Vec F S512x1 .f32) (xs0 xs1 xs2 : Vec F S512x1 .f32) :
    sout0_B_1 c i a2 h2 a3 h3 a4 h4 a5 h5 a6 h6 a7 h7 a8 h8 hc0 hc1 x0 x1 x2 xs0 xs1 xs2 = k0_pay7 x0 xs0 xs1 xs0 := by
  unfold sout0_B_1
  rw [View.read_writes_eq_canon _ _ _ (scover0_B_1 c i a2 h2 a3 h3 a4 h4 a5 h5 a6 h6 a7 h7 a8 h8 hc0 hc1 x0 x1 x2 xs0 xs1 xs2)]
  unfold kernelRun0_B
  dsimp only
  sl_unfold_words
  rw [View.canon_unit_zero hz]
  simp only [View.readAt_eq_ld, h2.read_unread, h3.read_unread, h4.read_unread, h6.read_unread, h7.read_unread, h8.read_unread,
    View.ld_unit_zero (S := S512x6400) hz, View.ld_unit_zero (S := S512x1) hz, View.readCov_unit_zero (S := S512x1) _ hz]

/-- A middle tile: the running selected logit over what the tile before left. -/
theorem sB2 (c : Dev nD) (i : grid0.Coords) (a2 : Memref sig .tc .vmem S512x6400 .f32) (h2 : a2.IsWhole) (a3 : Memref sig .tc .vmem S512x1 .i32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (hc0 : ¬cond0_0 i) (hc1 : ¬cond0_1 i) (x0 : Vec F S512x6400 .f32) (x1 : Vec F S512x1 .i32) (x2 : Vec F S512x1 .f32) (xs0 xs1 xs2 : Vec F S512x1 .f32) :
    sout0_B_2 c i a2 h2 a3 h3 a4 h4 a5 h5 a6 h6 a7 h7 a8 h8 hc0 hc1 x0 x1 x2 xs0 xs1 xs2 = k0_pay1 (k0_pay9 i x0 x1) xs2 := by
  unfold sout0_B_2
  rw [View.read_writes_eq_canon _ _ _ (scover0_B_2 c i a2 h2 a3 h3 a4 h4 a5 h5 a6 h6 a7 h7 a8 h8 hc0 hc1 x0 x1 x2 xs0 xs1 xs2)]
  unfold kernelRun0_B
  dsimp only
  sl_unfold_words
  rw [View.canon_unit_zero hz]
  simp only [View.readAt_eq_ld, h2.read_unread, h3.read_unread, h4.read_unread, h6.read_unread, h7.read_unread, h8.read_unread,
    View.ld_unit_zero (S := S512x6400) hz, View.ld_unit_zero (S := S512x1) hz, View.readCov_unit_zero (S := S512x1) _ hz]

/-- The last tile: the running maximum over what the tile before left. -/
theorem sC0 (c : Dev nD) (i : grid0.Coords) (a2 : Memref sig .tc .vmem S512x6400 .f32) (h2 : a2.IsWhole) (a3 : Memref sig .tc .vmem S512x1 .i32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (hc0 : ¬cond0_0 i) (hc1 : cond0_1 i) (x0 : Vec F S512x6400 .f32) (x1 : Vec F S512x1 .i32) (x2 : Vec F S512x1 .f32) (xs0 xs1 xs2 : Vec F S512x1 .f32) :
    sout0_C_0 c i a2 h2 a3 h3 a4 h4 a5 h5 a6 h6 a7 h7 a8 h8 hc0 hc1 x0 x1 x2 xs0 xs1 xs2 = k0_pay8 x0 xs0 := by
  unfold sout0_C_0
  rw [View.read_writes_eq_canon _ _ _ (scover0_C_0 c i a2 h2 a3 h3 a4 h4 a5 h5 a6 h6 a7 h7 a8 h8 hc0 hc1 x0 x1 x2 xs0 xs1 xs2)]
  unfold kernelRun0_C
  dsimp only
  sl_unfold_words
  rw [View.canon_unit_zero hz]
  simp only [View.readAt_eq_ld, h2.read_unread, h3.read_unread, h4.read_unread, h6.read_unread, h7.read_unread, h8.read_unread,
    View.ld_unit_zero (S := S512x6400) hz, View.ld_unit_zero (S := S512x1) hz, View.readCov_unit_zero (S := S512x1) _ hz]

/-- The last tile: the running sum over what the tile before left. -/
theorem sC1 (c : Dev nD) (i : grid0.Coords) (a2 : Memref sig .tc .vmem S512x6400 .f32) (h2 : a2.IsWhole) (a3 : Memref sig .tc .vmem S512x1 .i32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (hc0 : ¬cond0_0 i) (hc1 : cond0_1 i) (x0 : Vec F S512x6400 .f32) (x1 : Vec F S512x1 .i32) (x2 : Vec F S512x1 .f32) (xs0 xs1 xs2 : Vec F S512x1 .f32) :
    sout0_C_1 c i a2 h2 a3 h3 a4 h4 a5 h5 a6 h6 a7 h7 a8 h8 hc0 hc1 x0 x1 x2 xs0 xs1 xs2 = k0_pay7 x0 xs0 xs1 xs0 := by
  unfold sout0_C_1
  rw [View.read_writes_eq_canon _ _ _ (scover0_C_1 c i a2 h2 a3 h3 a4 h4 a5 h5 a6 h6 a7 h7 a8 h8 hc0 hc1 x0 x1 x2 xs0 xs1 xs2)]
  unfold kernelRun0_C
  dsimp only
  sl_unfold_words
  rw [View.canon_unit_zero hz]
  simp only [View.readAt_eq_ld, h2.read_unread, h3.read_unread, h4.read_unread, h6.read_unread, h7.read_unread, h8.read_unread,
    View.ld_unit_zero (S := S512x6400) hz, View.ld_unit_zero (S := S512x1) hz, View.readCov_unit_zero (S := S512x1) _ hz]

/-- The last tile: the running selected logit over what the tile before left. -/
theorem sC2 (c : Dev nD) (i : grid0.Coords) (a2 : Memref sig .tc .vmem S512x6400 .f32) (h2 : a2.IsWhole) (a3 : Memref sig .tc .vmem S512x1 .i32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (hc0 : ¬cond0_0 i) (hc1 : cond0_1 i) (x0 : Vec F S512x6400 .f32) (x1 : Vec F S512x1 .i32) (x2 : Vec F S512x1 .f32) (xs0 xs1 xs2 : Vec F S512x1 .f32) :
    sout0_C_2 c i a2 h2 a3 h3 a4 h4 a5 h5 a6 h6 a7 h7 a8 h8 hc0 hc1 x0 x1 x2 xs0 xs1 xs2 = k0_pay1 (k0_pay9 i x0 x1) xs2 := by
  unfold sout0_C_2
  rw [View.read_writes_eq_canon _ _ _ (scover0_C_2 c i a2 h2 a3 h3 a4 h4 a5 h5 a6 h6 a7 h7 a8 h8 hc0 hc1 x0 x1 x2 xs0 xs1 xs2)]
  unfold kernelRun0_C
  dsimp only
  sl_unfold_words
  rw [View.canon_unit_zero hz]
  simp only [View.readAt_eq_ld, h2.read_unread, h3.read_unread, h4.read_unread, h6.read_unread, h7.read_unread, h8.read_unread,
    View.ld_unit_zero (S := S512x6400) hz, View.ld_unit_zero (S := S512x1) hz, View.readCov_unit_zero (S := S512x1) _ hz]

/-- The last tile: the output block holds the rows' losses, from the three updated running values and the weights. -/
theorem oC3 (c : Dev nD) (i : grid0.Coords) (a2 : Memref sig .tc .vmem S512x6400 .f32) (h2 : a2.IsWhole) (a3 : Memref sig .tc .vmem S512x1 .i32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (hc0 : ¬cond0_0 i) (hc1 : cond0_1 i) (x0 : Vec F S512x6400 .f32) (x1 : Vec F S512x1 .i32) (x2 : Vec F S512x1 .f32) (xs0 xs1 xs2 : Vec F S512x1 .f32) :
    out0_C_3 c i a2 h2 a3 h3 a4 h4 a5 h5 a6 h6 a7 h7 a8 h8 hc0 hc1 x0 x1 x2 xs0 xs1 xs2 = k0_pay2 (k0_pay1 (k0_pay9 i x0 x1) xs2) (k0_pay8 x0 xs0) (k0_pay7 x0 xs0 xs1 xs0) x2 := by
  unfold out0_C_3
  rw [View.read_writes_eq_canon _ _ _ (cover0_C_3 c i a2 h2 a3 h3 a4 h4 a5 h5 a6 h6 a7 h7 a8 h8 hc0 hc1 x0 x1 x2 xs0 xs1 xs2)]
  unfold kernelRun0_C
  dsimp only
  sl_unfold_words
  rw [View.canon_unit_zero hz]
  simp only [View.readAt_eq_ld, h2.read_unread, h3.read_unread, h4.read_unread, h6.read_unread, h7.read_unread, h8.read_unread,
    View.ld_unit_zero (S := S512x6400) hz, View.ld_unit_zero (S := S512x1) hz, View.readCov_unit_zero (S := S512x1) _ hz]

end Cert.KernelIdeal.FocalPieces

end
-- ==== Proof.KernelBlocks.lean ====
import proofs.«416310_j69758858822546_3_alg».proof.Proof.Spec
import proofs.«416310_j69758858822546_3_alg».proof.Proof.Gen.KernelIdeal.Frame.Runs
import Idealize.ShloMosaic.Lib.ValueIdx
import Idealize.ShloMosaic.Lib.Pipeline.Value

noncomputable section

open scoped BigOperators

namespace Cert.KernelIdeal.FocalBlocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The logits' block at grid point `t`: 512 rows by 6400 columns. -/
abbrev xblk (c : Dev nD) (t : Fin cfg0.N) : Vec F S512x6400 .f32 := iblk m c 0 t
/-- The classes' block at grid point `t`: 512 rows, one column. -/
abbrev tblk (c : Dev nD) (t : Fin cfg0.N) : Vec F S512x1 .i32 := iblk m c 1 t
/-- The weights' block at grid point `t`: 512 rows, one column. -/
abbrev wblk (c : Dev nD) (t : Fin cfg0.N) : Vec F S512x1 .f32 := iblk m c 2 t
/-- The logits as the region finds them. -/
abbrev xarr (c : Dev nD) : Vec F S8192x32000 .f32 := V m c main_arg0
/-- The class column as the region finds it. -/
abbrev tarr (c : Dev nD) : Vec F S8192x1 .i32 := V m c main_v0
/-- The weight column as the region finds it. -/
abbrev warr (c : Dev nD) : Vec F S8192x1 .f32 := V m c main_v8

/-- Grid point `t` is row tile `t / 5`, column tile `t % 5` (the grid is 16 by 5, the column tile running fastest). -/
theorem N_eq : cfg0.N = 80 := N_0

/-- Row `r` of the block at point `t` is row `512 · (t / 5) + r` of the array. -/
def rowAt (t : Fin cfg0.N) (r : Fin 512) : Fin 8192 :=
  ⟨512 * (t.val / 5) + r.val, by have := lt_of_lt_of_eq t.isLt N_eq; have := r.isLt; omega⟩

/-- Column `j` of the block at point `t` is column `6400 · (t % 5) + j` of the array. -/
def colAt (t : Fin cfg0.N) (j : Fin 6400) : Fin 32000 :=
  ⟨6400 * (t.val % 5) + j.val, by have := j.isLt; omega⟩

/-- The logits' window reads row tile `t / 5`, column tile `t % 5` at point `t`: decided once over the 80 points. -/
private theorem idx0 : ∀ t : Fin cfg0.N, win0_0.index t 0 = t.val / 5 ∧ win0_0.index t 1 = t.val % 5 :=
  (by decide +kernel : ∀ t : Fin grid0.N, win0_0.index t 0 = t.val / 5 ∧ win0_0.index t 1 = t.val % 5)
/-- The class column's window reads row tile `t / 5`, column tile `0`. -/
private theorem idx1 : ∀ t : Fin cfg0.N, win0_1.index t 0 = t.val / 5 ∧ win0_1.index t 1 = 0 :=
  (by decide +kernel : ∀ t : Fin grid0.N, win0_1.index t 0 = t.val / 5 ∧ win0_1.index t 1 = 0)
/-- The weight column's window reads row tile `t / 5`, column tile `0`. -/
private theorem idx2 : ∀ t : Fin cfg0.N, win0_2.index t 0 = t.val / 5 ∧ win0_2.index t 1 = 0 :=
  (by decide +kernel : ∀ t : Fin grid0.N, win0_2.index t 0 = t.val / 5 ∧ win0_2.index t 1 = 0)

/-- The second grid coordinate of point `t` is its column tile. -/
theorem coord1_val (t : Fin cfg0.N) : ((grid0.coords t) 1).val = t.val % 5 := by
  exact (by decide +kernel : ∀ t : Fin grid0.N, ((grid0.coords t) 1).val = t.val % 5) t

/-- The logits' block, entry by entry. -/
theorem xblk_at (c : Dev nD) (t : Fin cfg0.N) (r : Fin 512) (j : Fin 6400) :
    xblk m c t (ix2 r j) = xarr m c (ix2 (rowAt t r) (colAt t j)) := by
  have hi := idx0 t
  show iblk m c 0 t (ix2 r j) = V m c main_arg0 (ix2 (rowAt t r) (colAt t j))
  unfold iblk
  rw [View.read_apply]
  show V m c main_arg0 _ = V m c main_arg0 _
  congr 1
  funext a
  apply Fin.ext
  match a with
  | ⟨0, _⟩ => show win0_0.index t 0 * 512 + 1 * r.val = 512 * (t.val / 5) + r.val; rw [hi.1]; omega
  | ⟨1, _⟩ => show win0_0.index t 1 * 6400 + 1 * j.val = 6400 * (t.val % 5) + j.val; rw [hi.2]; omega

/-- The classes' block, entry by entry. -/
theorem tblk_at (c : Dev nD) (t : Fin cfg0.N) (r : Fin 512) :
    tblk m c t (ix2 r (0 : Fin 1)) = tarr m c (ix2 (rowAt t r) (0 : Fin 1)) := by
  have hi := idx1 t
  show iblk m c 1 t (ix2 r (0 : Fin 1)) = V m c main_v0 (ix2 (rowAt t r) (0 : Fin 1))
  unfold iblk
  rw [View.read_apply]
  show V m c main_v0 _ = V m c main_v0 _
  congr 1
  funext a
  apply Fin.ext
  match a with
  | ⟨0, _⟩ => show win0_1.index t 0 * 512 + 1 * r.val = 512 * (t.val / 5) + r.val; rw [hi.1]; omega
  | ⟨1, _⟩ => show win0_1.index t 1 * 1 + 1 * (0 : Fin 1).val = (0 : Fin 1).val; rw [hi.2]; rfl

/-- The weights' block, entry by entry. -/
theorem wblk_at (c : Dev nD) (t : Fin cfg0.N) (r : Fin 512) :
    wblk m c t (ix2 r (0 : Fin 1)) = warr m c (ix2 (rowAt t r) (0 : Fin 1)) := by
  have hi := idx2 t
  show iblk m c 2 t (ix2 r (0 : Fin 1)) = V m c main_v8 (ix2 (rowAt t r) (0 : Fin 1))
  unfold iblk
  rw [View.read_apply]
  show V m c main_v8 _ = V m c main_v8 _
  congr 1
  funext a
  apply Fin.ext
  match a with
  | ⟨0, _⟩ => show win0_2.index t 0 * 512 + 1 * r.val = 512 * (t.val / 5) + r.val; rw [hi.1]; omega
  | ⟨1, _⟩ => show win0_2.index t 1 * 1 + 1 * (0 : Fin 1).val = (0 : Fin 1).val; rw [hi.2]; rfl

end Cert.KernelIdeal.FocalBlocks

end
-- ==== Proof.KernelAt.lean ====
import proofs.«416310_j69758858822546_3_alg».proof.Proof.Spec
import proofs.«416310_j69758858822546_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.FocalAt

open Idealize.ShloMosaic Idealize.ShloMosaic.ValueIdx Cert.KernelIdeal Cert.KernelIdeal.Gen Cert.Focal

/-- The word of `-∞`. -/
private theorem ofBits_negInf : Ideal.ofBits .f32 0xFF800000#32 = (⊥ : EReal) := by
  simp [Ideal.ofBits, Ideal.ieee]

/-- The word of `1`. -/
private theorem ofBits_one : Ideal.ofBits .f32 0x3F800000#32 = (1 : EReal) := by
  simp [Ideal.ofBits, Ideal.ieee, -EReal.coe_mul]; norm_num

/-- A vector of 512 entries viewed as a column reads, at `(r, 0)`, entry `r`. -/
private theorem cast_col {α : Type} (v : S512.Idx → α) (h : S512.ShapeCasts S512x1) (r : Fin 512) :
    shapeCast S512x1 v h (ix2 r (0 : Fin 1)) = v (ix1 r) :=
  shapeCast_apply v h _ _ (by
    rw [Shape.rowMajor_val_two, Shape.rowMajor_val_one]
    show r.val = r.val * 1 + 0
    omega)

/-- A column spread over 6400 lanes reads, at `(r, j)`, the column's entry `r`. -/
private theorem bcast_col {α : Type} (v : S512x1.Idx → α) (h : S512x1.Broadcasts S512x6400) (r : Fin 512) (j : Fin 6400) :
    broadcastTo S512x6400 v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- The index of row `r` with lane `k` put back. -/
private theorem lift_row (h : S512x6400.Reduces [1] S512) (r : Fin 512) (k : Fin 6400) :
    h.lift (ix1 r) k = ix2 r k := by
  funext c
  match c with
  | ⟨0, _⟩ => exact Fin.ext rfl
  | ⟨1, _⟩ => exact Fin.ext rfl

/-- The lane maximum of row `r`. -/
private theorem rowmax (src : FVec Ideal S512x6400 .f32) (h : S512x6400.Reduces [1] S512) (hφ : FKind.Formats .f32)
    (hacc : (0xFF800000#32 : BitVec 32) = FKind.maximumf.neutral .f32 hφ) (r : Fin 512) :
    multiReduction .maximumf [1] S512 src 0xFF800000#32 h hφ hacc (ix1 r) = rmax (fun j : Fin 6400 => src (ix2 r j)) := by
  refine (Ideal.multiReduction_maximumf_single src 0xFF800000#32 h hφ hacc (ix1 r)).trans ?_
  show (Finset.univ : Finset (Fin 6400)).fold max (Ideal.ofBits .f32 0xFF800000#32) (fun k => src (h.lift (ix1 r) k)) = _
  rw [ofBits_negInf]
  unfold rmax
  exact congrArg (fun f : Fin 6400 → EReal => (Finset.univ : Finset (Fin 6400)).fold max ⊥ f)
    (funext fun k => congrArg src (lift_row h r k))

/-- The lane sum of row `r`. -/
private theorem rowsum (src : FVec Ideal S512x6400 .f32) (h : S512x6400.Reduces [1] S512) (hφ : FKind.Formats .f32)
    (hacc : (0x00000000#32 : BitVec 32) = FKind.add.neutral .f32 hφ) (r : Fin 512) :
    multiReduction .add [1] S512 src 0x00000000#32 h hφ hacc (ix1 r) = ∑ j : Fin 6400, src (ix2 r j) := by
  refine (Ideal.multiReduction_add_single src 0x00000000#32 h hφ hacc (ix1 r)).trans ?_
  show ∑ k : Fin 6400, src (h.lift (ix1 r) k) = _
  exact Finset.sum_congr rfl fun k _ => congrArg src (lift_row h r k)

/-- Tile `k`'s column word at lane `j` is the word `w` exactly when column `6400 · k + j` is `w`'s number: nothing wraps. -/
private theorem word_hit (k : Nat) (hk : k < 5) (j : Fin 6400) (w : BitVec 32) :
    (BitVec.ofNat 32 k * 6400#32 + BitVec.ofNat 32 j.val = w) ↔ 6400 * k + j.val = w.toNat := by
  have hj := j.isLt
  have ht : (BitVec.ofNat 32 k * 6400#32 + BitVec.ofNat 32 j.val).toNat = 6400 * k + j.val := by
    rw [BitVec.toNat_add, BitVec.toNat_mul, BitVec.toNat_ofNat, BitVec.toNat_ofNat, BitVec.toNat_ofNat]
    omega
  constructor
  · intro h; rw [← h, ht]
  · intro h; exact BitVec.eq_of_toNat_eq (ht.trans h)

/-- The masked selection at one lane. -/
private theorem select_hit {α : Type} (k : Nat) (hk : k < 5) (j : Fin 6400) (w : BitVec 32) (x y : α) :
    Scalar.select (IntOp.cmpi .eq (IntOp.addi (Scalar.muli (BitVec.ofNat 32 k) 6400#32) (BitVec.ofNat 32 j.val)) w) x y
      = if hitAt k w.toNat j then x else y := by
  by_cases h : hitAt k w.toNat j
  · rw [if_pos h]
    have hw : BitVec.ofNat 32 k * 6400#32 + BitVec.ofNat 32 j.val = w := (word_hit k hk j w).mpr h
    have hb : IntOp.cmpi .eq (IntOp.addi (Scalar.muli (BitVec.ofNat 32 k) 6400#32) (BitVec.ofNat 32 j.val)) w = 1#1 := by
      show BitVec.ofBool (BitVec.ofNat 32 k * 6400#32 + BitVec.ofNat 32 j.val == w) = 1#1
      rw [hw]; simp
    rw [hb, select_one]
  · rw [if_neg h]
    have hw : ¬ (BitVec.ofNat 32 k * 6400#32 + BitVec.ofNat 32 j.val = w) := fun e => h ((word_hit k hk j w).mp e)
    have hb : IntOp.cmpi .eq (IntOp.addi (Scalar.muli (BitVec.ofNat 32 k) 6400#32) (BitVec.ofNat 32 j.val)) w = 0#1 := by
      have hf : (BitVec.ofNat 32 k * 6400#32 + BitVec.ofNat 32 j.val == w) = false := by
        rw [beq_eq_false_iff_ne]; exact hw
      show BitVec.ofBool (BitVec.ofNat 32 k * 6400#32 + BitVec.ofNat 32 j.val == w) = 0#1
      rw [hf]; rfl
    rw [hb, select_zero]

/-- The running maximum against the tile's row maximum, before the closing identity cast. -/
private theorem pay6_at (v3 : Vec Ideal S512x6400 .f32) (v6 : Vec Ideal S512x1 .f32) (r : Fin 512) :
    (k0_pay6 (F := Ideal) v3 v6) (ix2 r (0 : Fin 1)) = stepM (v6 (ix2 r (0 : Fin 1))) (fun j : Fin 6400 => v3 (ix2 r j)) :=
  congrArg (max (v6 (ix2 r (0 : Fin 1)))) ((cast_col _ _ r).trans (rowmax v3 _ _ _ r))

/-- The masked tile at one lane: the row's entry where the lane's column is the row's class word, `-∞` elsewhere. -/
private theorem pay9_at (i : grid0.Coords) (v3 : Vec Ideal S512x6400 .f32) (v29 : Vec Ideal S512x1 .i32) (r : Fin 512) (j : Fin 6400) :
    (k0_pay9 (F := Ideal) i v3 v29) (ix2 r j)
      = if hitAt (i 1).val (v29 (ix2 r (0 : Fin 1))).toNat j then v3 (ix2 r j) else (⊥ : EReal) := by
  have hk : (i 1).val < 5 := (i 1).isLt
  refine Eq.trans ?_ (select_hit (i 1).val hk j (v29 (ix2 r (0 : Fin 1))) (v3 (ix2 r j)) (⊥ : EReal))
  have e1 : iota .tc S512x6400 32 [1] iota_S512x6400_d1_w32 (ix2 r j) = BitVec.ofNat 32 j.val :=
    iota_single_apply .tc S512x6400 32 1 _ (ix2 r j)
  have e2 : broadcastTo S512x6400 (shapeCast S512x1 v29 shapeCasts_S512x1_S512x1) broadcasts_S512x1_S512x6400 (ix2 r j)
      = v29 (ix2 r (0 : Fin 1)) :=
    (bcast_col _ _ r j).trans (congrFun (shapeCast_self v29 _) _)
  show Scalar.select (IntOp.cmpi .eq (IntOp.addi (Scalar.muli (BitVec.ofNat 32 (i 1).val) 6400#32)
        (iota .tc S512x6400 32 [1] iota_S512x6400_d1_w32 (ix2 r j)))
      (broadcastTo S512x6400 (shapeCast S512x1 v29 shapeCasts_S512x1_S512x1) broadcasts_S512x1_S512x6400 (ix2 r j)))
      (v3 (ix2 r j)) (Ideal.ofBits .f32 0xFF800000#32) = _
  rw [e1, e2, ofBits_negInf]

/-- The reset of the running maximum: `-∞` everywhere. -/
theorem pay3_at (r : Fin 512) : (k0_pay3 (F := Ideal)) (ix2 r (0 : Fin 1)) = (⊥ : EReal) := by
  unfold k0_pay3
  rw [shapeCast_self]
  exact ofBits_negInf

/-- The reset of the running sum: `0` everywhere. -/
theorem pay4_at (r : Fin 512) : (k0_pay4 (F := Ideal)) (ix2 r (0 : Fin 1)) = (0 : EReal) := by
  unfold k0_pay4
  rw [shapeCast_self]
  exact Ideal.ofBits_zero_f32

/-- The reset of the running selected logit: `-∞` everywhere. -/
theorem pay5_at (r : Fin 512) : (k0_pay5 (F := Ideal)) (ix2 r (0 : Fin 1)) = (⊥ : EReal) := by
  unfold k0_pay5
  rw [shapeCast_self]
  exact ofBits_negInf

/-- The new running maximum of row `r`: the old one against the tile's row maximum. -/
theorem pay8_at (v3 : Vec Ideal S512x6400 .f32) (v6 : Vec Ideal S512x1 .f32) (r : Fin 512) :
    (k0_pay8 (F := Ideal) v3 v6) (ix2 r (0 : Fin 1)) = stepM (v6 (ix2 r (0 : Fin 1))) (fun j : Fin 6400 => v3 (ix2 r j)) := by
  unfold k0_pay8
  rw [shapeCast_self]
  exact pay6_at v3 v6 r

/-- The new running sum of row `r`: the old sum rescaled to the new maximum, plus the tile's sum of exponentials. -/
theorem pay7_at (v3 : Vec Ideal S512x6400 .f32) (v6 v8 : Vec Ideal S512x1 .f32) (r : Fin 512) :
    (k0_pay7 (F := Ideal) v3 v6 v8 v6) (ix2 r (0 : Fin 1))
      = stepL (v6 (ix2 r (0 : Fin 1))) (v8 (ix2 r (0 : Fin 1))) (fun j : Fin 6400 => v3 (ix2 r j)) := by
  unfold k0_pay7
  rw [shapeCast_self]
  refine (addf_apply _ _ _).trans ?_
  unfold stepL
  refine congrArg₂ (· + ·) ?_ ?_
  · show v8 (ix2 r (0 : Fin 1)) * Ideal.exp (v6 (ix2 r (0 : Fin 1)) - k0_pay6 (F := Ideal) v3 v6 (ix2 r (0 : Fin 1))) = _
    rw [pay6_at]
  · refine (cast_col _ _ r).trans ?_
    refine (rowsum _ _ _ _ r).trans ?_
    unfold rsumexp
    refine Finset.sum_congr rfl fun j _ => ?_
    show Ideal.exp (v3 (ix2 r j) - broadcastTo S512x6400 (k0_pay6 (F := Ideal) v3 v6) broadcasts_S512x1_S512x6400 (ix2 r j)) = _
    rw [bcast_col, pay6_at]

/-- The new running selected logit of row `r` at column tile `i 1`: the old one against the tile's row entries whose
    column `6400 · (i 1) + j` is the row's class word. -/
theorem pay19_at (i : grid0.Coords) (v3 : Vec Ideal S512x6400 .f32) (v29 : Vec Ideal S512x1 .i32) (v37 : Vec Ideal S512x1 .f32)
    (r : Fin 512) :
    (k0_pay1 (F := Ideal) (k0_pay9 (F := Ideal) i v3 v29) v37) (ix2 r (0 : Fin 1))
      = stepT (v37 (ix2 r (0 : Fin 1))) (fun j : Fin 6400 => v3 (ix2 r j)) (hitAt (i 1).val (v29 (ix2 r (0 : Fin 1))).toNat) := by
  unfold k0_pay1
  rw [shapeCast_self]
  refine congrArg (max (v37 (ix2 r (0 : Fin 1)))) ?_
  refine (cast_col _ _ r).trans ?_
  refine (rowmax _ _ _ _ r).trans ?_
  unfold rmax rsel
  exact congrArg (fun f : Fin 6400 → EReal => (Finset.univ : Finset (Fin 6400)).fold max ⊥ f)
    (funext fun j => pay9_at i v3 v29 r j)

/-- The row's loss as the last column tile stores it. -/
theorem pay2_at (v45 v46 v48 v58 : Vec Ideal S512x1 .f32) (r : Fin 512) :
    (k0_pay2 (F := Ideal) v45 v46 v48 v58) (ix2 r (0 : Fin 1))
      = lossK (v45 (ix2 r (0 : Fin 1))) (v46 (ix2 r (0 : Fin 1))) (v48 (ix2 r (0 : Fin 1))) (v58 (ix2 r (0 : Fin 1))) := by
  have e0 : Scalar.ofBits (F := Ideal) .f32 0x00000000#32 = (0 : EReal) := Ideal.ofBits_zero_f32
  have e1 : Scalar.ofBits (F := Ideal) .f32 0x3F800000#32 = (1 : EReal) := ofBits_one
  have e2 : shapeCast S512x1 v58 shapeCasts_S512x1_S512x1 = v58 := shapeCast_self _ _
  unfold k0_pay2 lossK
  rw [e2, e0, e1]
  rfl

end Cert.KernelIdeal.FocalAt

end
-- ==== Proof.KernelInv.lean ====
/-
  The three running values of the kernel, by induction over the grid's points.  Point `t = 5 q + k` is column tile `k` of
  row tile `q`.  After it, row `r` of the three carried buffers holds, for the row `512 q + r` of the logits: the maximum over
  the columns of the tiles `0 … k`, the sum of `exp (x - that maximum)` over them, and the row's class logit if its column
  has been seen (`-∞` otherwise).  The first tile starts from the reset values; every later tile updates what the tile
  before left (the online rescaling of the sum needs the logits to be real numbers).  After the last tile the output block
  holds the kernel's closing arithmetic on the three values and the row's weight.
-/
import proofs.«416310_j69758858822546_3_alg».proof.Proof.Spec
import proofs.«416310_j69758858822546_3_alg».proof.Proof.RowMathMax
import proofs.«416310_j69758858822546_3_alg».proof.Proof.RowMathSum
import proofs.«416310_j69758858822546_3_alg».proof.Proof.KernelPieces
import proofs.«416310_j69758858822546_3_alg».proof.Proof.KernelBlocks
import proofs.«416310_j69758858822546_3_alg».proof.Proof.KernelAt
import proofs.«416310_j69758858822546_3_alg».proof.Proof.Gen.KernelIdeal.Frame
import Idealize.ShloMosaic.Lib.ValueIdx

noncomputable section

open scoped BigOperators

namespace Cert.KernelIdeal.FocalInv

open Idealize.ShloMosaic Idealize.ShloMosaic.TcCoe Idealize.ShloMosaic.ValueIdx Idealize.SL.Sem
open Cert.KernelIdeal Cert.KernelIdeal.Gen Cert.KernelIdeal.FocalBlocks Cert.KernelIdeal.FocalAt Cert.KernelIdeal.FocalPieces
open Cert.Focal

variable (m : (ℓ : Loc nD τ sig) → Buf (Elt Ideal) ℓ)

/-- Row `r` of row tile `q`. -/
def rowQ (q : Nat) (hq : q < 16) (r : Fin 512) : Fin 8192 := ⟨512 * q + r.val, by have := r.isLt; omega⟩

/-- The logits of that row, as the region finds them. -/
abbrev xrow (c : Dev nD) (q : Nat) (hq : q < 16) (r : Fin 512) : Fin 32000 → EReal := rowOf (xarr m c) (rowQ q hq r)

/-- The class word of that row, as the region finds it. -/
abbrev tword (c : Dev nD) (q : Nat) (hq : q < 16) (r : Fin 512) : BitVec 32 := tarr m c (ix2 (rowQ q hq r) (0 : Fin 1))

theorem rowAt_eq (t : Fin cfg0.N) (q k : Nat) (hq : q < 16) (hk : k < 5) (ht : t.val = 5 * q + k) (r : Fin 512) :
    rowAt t r = rowQ q hq r :=
  Fin.ext (by show 512 * (t.val / 5) + r.val = 512 * q + r.val; rw [ht]; omega)

/-- Row `r` of the logits' block at point `5 q + k` is tile `k` of the row `512 q + r`. -/
theorem blockRow (c : Dev nD) (t : Fin cfg0.N) (q k : Nat) (hq : q < 16) (hk : k < 5) (ht : t.val = 5 * q + k) (r : Fin 512) :
    (fun j : Fin 6400 => xblk m c t (ix2 r j)) = tile (xrow m c q hq r) ⟨k, hk⟩ := by
  funext j
  rw [xblk_at, rowAt_eq t q k hq hk ht r]
  show xarr m c (ix2 (rowQ q hq r) (colAt t j)) = xarr m c (ix2 (rowQ q hq r) (col ⟨k, hk⟩ j))
  have e : colAt t j = col ⟨k, hk⟩ j := Fin.ext (by show 6400 * (t.val % 5) + j.val = 6400 * k + j.val; rw [ht]; omega)
  rw [e]

theorem outs_congr (c : Dev nD) {a b : Nat} (ha : a < cfg0.N) (hb : b < cfg0.N) (e : a = b) :
    outsAt0 m c a ha = outsAt0 m c b hb := by subst e; rfl

/-- What the three carried buffers hold after column tile `k` of row tile `q`. -/
structure Inv (c : Dev nD) (n : Nat) (hn : n < cfg0.N) (q k : Nat) (hq : q < 16) : Prop where
  hm : ∀ r : Fin 512, (outsAt0 m c n hn).2.1 (ix2 r (0 : Fin 1)) = mUpto (xrow m c q hq r) k
  hl : ∀ r : Fin 512, (outsAt0 m c n hn).2.2.1 (ix2 r (0 : Fin 1)) = lUpto (xrow m c q hq r) k
  ht : ∀ r : Fin 512, (outsAt0 m c n hn).2.2.2 (ix2 r (0 : Fin 1)) = tUpto (xrow m c q hq r) (tword m c q hq r).toNat k

/-- The updated running maximum at a later tile. -/
theorem newM (c : Dev nD) (hx : ∀ i, ∃ y : ℝ, xarr m c i = (y : EReal))
    (t : Fin cfg0.N) (q k : Nat) (hq : q < 16) (hk : k + 1 < 5) (ht : t.val = 5 * q + (k + 1))
    (pm : Vec Ideal S512x1 .f32) (hpm : ∀ r : Fin 512, pm (ix2 r (0 : Fin 1)) = mUpto (xrow m c q hq r) k) (r : Fin 512) :
    (k0_pay8 (F := Ideal) (xblk m c t) pm) (ix2 r (0 : Fin 1)) = mUpto (xrow m c q hq r) (k + 1) := by
  refine (pay8_at (xblk m c t) pm r).trans ?_
  rw [hpm r, blockRow m c t q (k + 1) hq hk ht r]
  exact mUpto_succ _ k hk

/-- The updated running sum at a later tile. -/
theorem newL (c : Dev nD) (hx : ∀ i, ∃ y : ℝ, xarr m c i = (y : EReal))
    (t : Fin cfg0.N) (q k : Nat) (hq : q < 16) (hk : k + 1 < 5) (ht : t.val = 5 * q + (k + 1))
    (pm pl : Vec Ideal S512x1 .f32) (hpm : ∀ r : Fin 512, pm (ix2 r (0 : Fin 1)) = mUpto (xrow m c q hq r) k)
    (hpl : ∀ r : Fin 512, pl (ix2 r (0 : Fin 1)) = lUpto (xrow m c q hq r) k) (r : Fin 512) :
    (k0_pay7 (F := Ideal) (xblk m c t) pm pl pm) (ix2 r (0 : Fin 1)) = lUpto (xrow m c q hq r) (k + 1) := by
  refine (pay7_at (xblk m c t) pm pl r).trans ?_
  rw [hpm r, hpl r, blockRow m c t q (k + 1) hq hk ht r]
  exact lUpto_succ _ (fun c' => hx (ix2 (rowQ q hq r) c')) k hk

/-- The updated running class logit at a later tile. -/
theorem newT (c : Dev nD) (hx : ∀ i, ∃ y : ℝ, xarr m c i = (y : EReal))
    (t : Fin cfg0.N) (q k : Nat) (hq : q < 16) (hk : k + 1 < 5) (ht : t.val = 5 * q + (k + 1))
    (pt : Vec Ideal S512x1 .f32)
    (hpt : ∀ r : Fin 512, pt (ix2 r (0 : Fin 1)) = tUpto (xrow m c q hq r) (tword m c q hq r).toNat k) (r : Fin 512) :
    (k0_pay1 (F := Ideal) (k0_pay9 (F := Ideal) (grid0.coords t) (xblk m c t) (tblk m c t)) pt) (ix2 r (0 : Fin 1))
      = tUpto (xrow m c q hq r) (tword m c q hq r).toNat (k + 1) := by
  refine (pay19_at (grid0.coords t) (xblk m c t) (tblk m c t) pt r).trans ?_
  have e1 : ((grid0.coords t) 1).val = k + 1 := by rw [coord1_val, ht]; omega
  have e2 : tblk m c t (ix2 r (0 : Fin 1)) = tword m c q hq r := by
    rw [tblk_at, rowAt_eq t q (k + 1) hq hk ht r]
  rw [hpt r, blockRow m c t q (k + 1) hq hk ht r, e1, e2]
  exact tUpto_succ _ _ k hk

/-- The first column tile of a row tile: from the reset values. -/
theorem inv_first (c : Dev nD) (hx : ∀ i, ∃ y : ℝ, xarr m c i = (y : EReal)) (t : Fin cfg0.N) (q : Nat) (hq : q < 16)
    (ht : t.val = 5 * q + 0) : Inv m c t.val t.isLt q 0 hq := by
  have h0 : t.val % 5 = 0 := by omega
  have h1 : ¬t.val % 5 = 4 := by omega
  have hblk : ∀ r : Fin 512, (fun j : Fin 6400 => xblk m c t (ix2 r j)) = tile (xrow m c q hq r) ⟨0, by omega⟩ :=
    fun r => blockRow m c t q 0 hq (by omega) ht r
  refine ⟨fun r => ?_, fun r => ?_, fun r => ?_⟩
  · rw [outsAt0_A m c t h0 h1]; dsimp only
    refine (congrFun (sA0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xblk m c t) (tblk m c t) (wblk m c t)) (ix2 r (0 : Fin 1))).trans ?_
    refine (pay8_at (xblk m c t) (k0_pay3 (F := Ideal)) r).trans ?_
    rw [pay3_at, hblk r]
    exact mUpto_zero _
  · rw [outsAt0_A m c t h0 h1]; dsimp only
    refine (congrFun (sA1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xblk m c t) (tblk m c t) (wblk m c t)) (ix2 r (0 : Fin 1))).trans ?_
    refine (pay7_at (xblk m c t) (k0_pay3 (F := Ideal)) (k0_pay4 (F := Ideal)) r).trans ?_
    rw [pay3_at, pay4_at, hblk r]
    exact lUpto_zero _ (fun c' => hx (ix2 (rowQ q hq r) c'))
  · rw [outsAt0_A m c t h0 h1]; dsimp only
    refine (congrFun (sA2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xblk m c t) (tblk m c t) (wblk m c t)) (ix2 r (0 : Fin 1))).trans ?_
    refine (pay19_at (grid0.coords t) (xblk m c t) (tblk m c t) (k0_pay5 (F := Ideal)) r).trans ?_
    have e1 : ((grid0.coords t) 1).val = 0 := by rw [coord1_val]; exact h0
    have e2 : tblk m c t (ix2 r (0 : Fin 1)) = tword m c q hq r := by
      rw [tblk_at, rowAt_eq t q 0 hq (by omega) ht r]
    rw [pay5_at, hblk r, e1, e2]
    exact tUpto_zero _ _

/-- A later column tile: over what the tile before left. -/
theorem inv_next (c : Dev nD) (hx : ∀ i, ∃ y : ℝ, xarr m c i = (y : EReal)) (t : Fin cfg0.N) (q k : Nat) (hq : q < 16)
    (hk : k + 1 < 5) (ht : t.val = 5 * q + (k + 1)) (p : Nat) (hp : p < cfg0.N) (hpt : p + 1 = t.val)
    (ih : Inv m c p hp q k hq) : Inv m c t.val t.isLt q (k + 1) hq := by
  have h0 : ¬t.val % 5 = 0 := by omega
  have hprev : ∀ h', outsAt0 m c (t.val - 1) h' = outsAt0 m c p hp := fun h' => outs_congr m c h' hp (by omega)
  by_cases h1 : t.val % 5 = 4
  · refine ⟨fun r => ?_, fun r => ?_, fun r => ?_⟩
    · rw [outsAt0_C m c t h0 h1]; dsimp only; rw [hprev]
      refine (congrFun (sC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (tblk m c t) (wblk m c t) (outsAt0 m c p hp).2.1 (outsAt0 m c p hp).2.2.1 (outsAt0 m c p hp).2.2.2) (ix2 r (0 : Fin 1))).trans ?_
      exact newM m c hx t q k hq hk ht _ ih.hm r
    · rw [outsAt0_C m c t h0 h1]; dsimp only; rw [hprev]
      refine (congrFun (sC1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (tblk m c t) (wblk m c t) (outsAt0 m c p hp).2.1 (outsAt0 m c p hp).2.2.1 (outsAt0 m c p hp).2.2.2) (ix2 r (0 : Fin 1))).trans ?_
      exact newL m c hx t q k hq hk ht _ _ ih.hm ih.hl r
    · rw [outsAt0_C m c t h0 h1]; dsimp only; rw [hprev]
      refine (congrFun (sC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (tblk m c t) (wblk m c t) (outsAt0 m c p hp).2.1 (outsAt0 m c p hp).2.2.1 (outsAt0 m c p hp).2.2.2) (ix2 r (0 : Fin 1))).trans ?_
      exact newT m c hx t q k hq hk ht _ ih.ht r
  · refine ⟨fun r => ?_, fun r => ?_, fun r => ?_⟩
    · rw [outsAt0_B m c t h0 h1]; dsimp only; rw [hprev]
      refine (congrFun (sB0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (xblk m c t) (tblk m c t) (wblk m c t) (outsAt0 m c p hp).2.1 (outsAt0 m c p hp).2.2.1 (outsAt0 m c p hp).2.2.2) (ix2 r (0 : Fin 1))).trans ?_
      exact newM m c hx t q k hq hk ht _ ih.hm r
    · rw [outsAt0_B m c t h0 h1]; dsimp only; rw [hprev]
      refine (congrFun (sB1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (xblk m c t) (tblk m c t) (wblk m c t) (outsAt0 m c p hp).2.1 (outsAt0 m c p hp).2.2.1 (outsAt0 m c p hp).2.2.2) (ix2 r (0 : Fin 1))).trans ?_
      exact newL m c hx t q k hq hk ht _ _ ih.hm ih.hl r
    · rw [outsAt0_B m c t h0 h1]; dsimp only; rw [hprev]
      refine (congrFun (sB2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (xblk m c t) (tblk m c t) (wblk m c t) (outsAt0 m c p hp).2.1 (outsAt0 m c p hp).2.2.1 (outsAt0 m c p hp).2.2.2) (ix2 r (0 : Fin 1))).trans ?_
      exact newT m c hx t q k hq hk ht _ ih.ht r

/-- THE INVARIANT at every point. -/
theorem inv (c : Dev nD) (hx : ∀ i, ∃ y : ℝ, xarr m c i = (y : EReal)) :
    ∀ (n : Nat) (hn : n < cfg0.N) (q k : Nat) (hq : q < 16), k < 5 → n = 5 * q + k → Inv m c n hn q k hq := by
  intro n
  induction n with
  | zero =>
    intro hn q k hq hk e
    obtain rfl : k = 0 := by omega
    exact inv_first m c hx ⟨0, hn⟩ q hq e
  | succ n ih =>
    intro hn q k hq hk e
    cases k with
    | zero => exact inv_first m c hx ⟨n + 1, hn⟩ q hq e
    | succ k =>
      exact inv_next m c hx ⟨n + 1, hn⟩ q k hq hk e n (Nat.lt_of_succ_lt hn) rfl
        (ih (Nat.lt_of_succ_lt hn) q k hq (by omega) (by omega))

/-- After the last column tile of row tile `q` the output block holds, row by row, the kernel's closing arithmetic on the
    whole row's maximum, sum and class logit, and the row's weight. -/
theorem out_last (c : Dev nD) (hx : ∀ i, ∃ y : ℝ, xarr m c i = (y : EReal)) (t : Fin cfg0.N) (q : Nat) (hq : q < 16)
    (ht : t.val = 5 * q + 4) (r : Fin 512) :
    (outsAt0 m c t.val t.isLt).1 (ix2 r (0 : Fin 1))
      = lossK (tUpto (xrow m c q hq r) (tword m c q hq r).toNat 4) (mUpto (xrow m c q hq r) 4) (lUpto (xrow m c q hq r) 4)
          (warr m c (ix2 (rowQ q hq r) (0 : Fin 1))) := by
  have hN : cfg0.N = 80 := N_eq
  have h0 : ¬t.val % 5 = 0 := by omega
  have h1 : t.val % 5 = 4 := by omega
  have hp : t.val - 1 < cfg0.N := Nat.lt_of_le_of_lt (Nat.sub_le _ _) t.isLt
  have ih : Inv m c (t.val - 1) hp q 3 hq := inv m c hx (t.val - 1) hp q 3 hq (by omega) (by omega)
  have hprev : ∀ h', outsAt0 m c (t.val - 1) h' = outsAt0 m c (t.val - 1) hp := fun h' => rfl
  rw [outsAt0_C m c t h0 h1]; dsimp only
  refine (congrFun (oC3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (tblk m c t) (wblk m c t) (outsAt0 m c (t.val - 1) hp).2.1 (outsAt0 m c (t.val - 1) hp).2.2.1 (outsAt0 m c (t.val - 1) hp).2.2.2) (ix2 r (0 : Fin 1))).trans ?_
  refine (pay2_at _ _ _ (wblk m c t) r).trans ?_
  rw [newT m c hx t q 3 hq (by omega) ht _ ih.ht r, newM m c hx t q 3 hq (by omega) ht _ ih.hm r,
    newL m c hx t q 3 hq (by omega) ht _ _ ih.hm ih.hl r, wblk_at, rowAt_eq t q 4 hq (by omega) ht r]

end Cert.KernelIdeal.FocalInv

end
-- ==== Proof.KernelHost.lean ====
import proofs.«416310_j69758858822546_3_alg».proof.Proof.Spec
import proofs.«416310_j69758858822546_3_alg».proof.Proof.Gen.KernelIdeal.Frame.Runs
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

open scoped BigOperators

namespace Cert.KernelIdeal.FocalHost

open Idealize.ShloMosaic Idealize.ShloMosaic.TcCoe Idealize.ShloMosaic.ValueIdx Idealize.SL.Sem
open Cert.KernelIdeal Cert.KernelIdeal.Gen Cert.Focal

variable (m : (ℓ : Loc nD τ sig) → Buf (Elt Ideal) ℓ)

/-- The rank-1 index at a coordinate, in its two spellings. -/
private theorem ofFin_eq_ix1 {n : Nat} (k : Fin n) : Shape.Idx.ofFin k = ix1 k := by
  funext a
  match a with
  | ⟨0, _⟩ => exact Fin.ext rfl

/-- A vector reshaped to a column reads, at (R, 0), the vector at R: the two row-major positions are R and R·1 + 0. -/
private theorem shapeCast_col {α : Type} {n : Nat} (x : (⟨1, ![n]⟩ : Shape).Idx → α)
    (h : (⟨1, ![n]⟩ : Shape).ShapeCasts ⟨2, ![n, 1]⟩) (R : Fin n) :
    shapeCast ⟨2, ![n, 1]⟩ x h (ix2 R (0 : Fin 1)) = x (ix1 R) :=
  shapeCast_apply x h _ _ (by
    rw [Shape.rowMajor_val_one, Shape.rowMajor_val_two]
    show R.val = R.val * 1 + 0
    omega)

/-- A word below 32000 is not negative as a signed integer: the test `t < 0` is 0 at it. -/
private theorem slt_zero_eq (w : BitVec 32) (hw : w.toNat < 32000) : IntOp.cmpi .slt w 0#32 = 0#1 := by
  refine eq_zero_of_ne_one fun h1 => ?_
  rw [StableHlo.Predicate.slt_iff_toNat (by omega) (by decide)] at h1
  have h0 : (0#32 : BitVec 32).toNat = 0 := rfl
  omega

/-- THE HOST'S TAKE, read at row R: `weight[class]` with a negative class wrapped by 32000 and the start index
    clamped into the table, reshaped to a column. At a class word that is a column the wrap's test fails, so the
    select keeps the word, and the clamp of a word in [0, 31999] is the word. -/
private theorem take_col {α : Type} (W : (⟨1, ![32000]⟩ : Shape).Idx → α) (T : IVec ⟨1, ![8192]⟩ 32)
    (d : GatherDims ⟨1, ![32000]⟩ ⟨2, ![8192, 1]⟩ ⟨1, ![8192]⟩)
    (hcoll : d.collapsedSliceDims = [0]) (hob : d.operandBatchingDims = [])
    (hsim : d.startIndexMap = [0]) (hivd : d.indexVectorDim = 1)
    (h0 : (⟨0, ![]⟩ : Shape).BroadcastsInDim ⟨1, ![8192]⟩ ![])
    (h1 : (⟨1, ![8192]⟩ : Shape).BroadcastsInDim ⟨2, ![8192, 1]⟩ ![0])
    (hc : (⟨1, ![8192]⟩ : Shape).ShapeCasts ⟨2, ![8192, 1]⟩)
    (hT : ∀ i, (T i).toNat < 32000) (R : Fin 8192) :
    shapeCast ⟨2, ![8192, 1]⟩
        (Host.gather d W (broadcastInDim ⟨2, ![8192, 1]⟩ ![0] h1
          (select (cmpi .slt T (broadcastInDim ⟨1, ![8192]⟩ ![] h0 (constantI ⟨0, ![]⟩ 32 0#32)))
            (addi T (broadcastInDim ⟨1, ![8192]⟩ ![] h0 (constantI ⟨0, ![]⟩ 32 32000#32))) T)))
        hc (ix2 R (0 : Fin 1))
      = W (ix1 (colOf (T (ix1 R)))) := by
  refine (shapeCast_col _ hc R).trans ?_
  conv_lhs => rw [← ofFin_eq_ix1 R]
  refine (StableHlo.Predicate.gather_take d hcoll hob hsim hivd W _ R (by decide)).trans ?_
  rw [ofFin_eq_ix1]
  refine congrArg W (congrArg ix1 (Fin.ext ?_))
  -- the start index read at row R is the class word itself
  have hidx : broadcastInDim ⟨2, ![8192, 1]⟩ ![0] h1
      (select (cmpi .slt T (broadcastInDim ⟨1, ![8192]⟩ ![] h0 (constantI ⟨0, ![]⟩ 32 0#32)))
        (addi T (broadcastInDim ⟨1, ![8192]⟩ ![] h0 (constantI ⟨0, ![]⟩ 32 32000#32))) T) (StableHlo.Predicate.ixP R)
      = T (ix1 R) := by
    rw [StableHlo.Predicate.bcast_col1, ofFin_eq_ix1, select_apply]
    have hs : cmpi .slt T (broadcastInDim ⟨1, ![8192]⟩ ![] h0 (constantI ⟨0, ![]⟩ 32 0#32)) (ix1 R) = 0#1 :=
      slt_zero_eq (T (ix1 R)) (hT (ix1 R))
    rw [hs, select_zero]
  have hR := hT (ix1 R)
  show min (BitVec.toInt _).toNat (32000 - 1) = min (T (ix1 R)).toNat 31999
  rw [hidx, StableHlo.Predicate.toInt_eq_toNat_of_lt (by omega), Int.toNat_natCast]

/-- The class column the region's second window is cut from: the classes, one per row, as launched. -/
theorem V_target (c : Dev nD) (R : Fin 8192) :
    V m c main_v0 (ix2 R (0 : Fin 1)) = m ((c : Thread nD τ).loc main_arg1) (ix1 R) := by
  show StableHlo.after hostOps0 (fun b => m (c, b)) (Proc.devRef .tc main_v0) (ix2 R (0 : Fin 1)) = _
  after_results
  exact shapeCast_col _ shapeCasts_S8192_S8192x1 R

/-- The weight column the region's third window is cut from: row `R` holds the weight of row `R`'s class — the host's
    gather at the class word, which is a column (so neither the wrap of a negative word nor the clamp moves it). -/
theorem V_weight (c : Dev nD) (hT : ∀ i, (m ((c : Thread nD τ).loc main_arg1) i).toNat < 32000) (R : Fin 8192) :
    V m c main_v8 (ix2 R (0 : Fin 1))
      = m ((c : Thread nD τ).loc main_arg2) (ix1 (colOf (m ((c : Thread nD τ).loc main_arg1) (ix1 R)))) := by
  show StableHlo.after hostOps0 (fun b => m (c, b)) (Proc.devRef .tc main_v8) (ix2 R (0 : Fin 1)) = _
  after_results
  exact take_col _ _ gather_S32000_S8192x1_S8192_n_0_n_n_0_1_1 rfl rfl rfl rfl _ _ _ hT R

end Cert.KernelIdeal.FocalHost

end
-- ==== Proof.KernelFinal.lean ====
import proofs.«416310_j69758858822546_3_alg».proof.Proof.Spec
import proofs.«416310_j69758858822546_3_alg».proof.Proof.KernelBlocks
import proofs.«416310_j69758858822546_3_alg».proof.Proof.Gen.KernelIdeal.Frame
import Idealize.ShloMosaic.Lib.ValueIdx
import Idealize.ShloMosaic.Lib.Pipeline.Value
import Idealize.ShloMosaic.Lib.StableHlo.Run
import Idealize.ShloMosaic.PureOps.Ideal.Laws

noncomputable section

open scoped BigOperators

namespace Cert.KernelIdeal.FocalFinal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.FocalBlocks Cert.Focal

variable (m : (ℓ : Loc nD τ sig) → Buf (Elt Ideal) ℓ) (ρ : Dev nD → PrngReg)

/-- What the output block holds after the last column tile of each row tile: the losses of the tile's 512 rows. -/
def LastTileLosses (c : Dev nD) : Prop :=
  ∀ (t : Fin cfg0.N), t.val % 5 = 4 → ∀ r : Fin 512,
    (outsAt0 m c t.val t.isLt).1 (ix2 r (0 : Fin 1))
      = rowLossAt (m ((c : Thread nD τ).loc main_arg0)) (m ((c : Thread nD τ).loc main_arg1)) (m ((c : Thread nD τ).loc main_arg2)) (rowAt t r)

/-- The loss column as a function of the row-and-column index: row `i` holds row `i`'s loss. -/
def lossFn (c : Dev nD) : S8192x1.Idx → EReal :=
  fun i => rowLossAt (m ((c : Thread nD τ).loc main_arg0)) (m ((c : Thread nD τ).loc main_arg1)) (m ((c : Thread nD τ).loc main_arg2))
    ⟨(i 0).val, idx2_lt0 i⟩

/-- The loss column, as contents of the output array. -/
def lossCol (c : Dev nD) : Buf (Elt Ideal) ((c : Thread nD τ).loc main_v9) := lossFn m c

/-- The output window's block index at point `t`: row tile `t / 5`, the one column tile. -/
theorem index3 : ∀ t : Fin cfg0.N, win0_3.index t 0 = t.val / 5 ∧ win0_3.index t 1 = 0 :=
  (by decide +kernel : ∀ t : Fin grid0.N, win0_3.index t 0 = t.val / 5 ∧ win0_3.index t 1 = 0)

/-- Each write-back of the output window writes its block of the loss column: at a point `t` with `t % 5 = 4` the
    staging buffer holds the losses of rows `512 · (t / 5) + r`, and the block at `t` is rows `512 · (t / 5) …`. -/
theorem flushed_eq (hout : ∀ c : Dev nD, LastTileLosses m c) (c : Dev nD) (t : Fin cfg0.N) (hf : (cfg0.win 3).flush t = true) :
    (dats m 0 c).flushed 3 t = ((cfg0.win 3).blk t).view.read (Elt Ideal) (lossCol m c) := by
  show (cfg0.win 3).cut (grid0.coords t) ((dats m 0 c).after 3 t) = _
  rw [after0_3]
  funext y
  rw [View.read_apply]
  have hm : t.val % 5 = 4 := (flush0_3 t).mp hf
  have hy0 : (y 0).val < 512 := (y 0).isLt
  have hy1 : (y 1).val < 1 := (y 1).isLt
  have hx : (cfg0.win 3).xinj (grid0.coords t) y = ix2 (⟨(y 0).val, hy0⟩ : Fin 512) (0 : Fin 1) := by
    funext a
    match a with
    | ⟨0, _⟩ => rfl
    | ⟨1, _⟩ => exact Fin.ext (by show (y 1).val = 0; omega)
  show (outsAt0 m c t.val t.isLt).1 ((cfg0.win 3).xinj (grid0.coords t) y) = lossCol m c _
  refine (congrArg (outsAt0 m c t.val t.isLt).1 hx).trans ?_
  refine (hout c t hm ⟨(y 0).val, hy0⟩).trans ?_
  unfold lossCol lossFn
  refine congrArg (rowLossAt _ _ _) (Fin.ext ?_)
  show 512 * (t.val / 5) + (y 0).val = win0_3.index t 0 * 512 + 1 * (y 0).val
  rw [(index3 t).1]; omega

/-- The sixteen write-backs tile the loss column (row `i` lies in the block written at point `5 · (i / 512) + 4`), so
    after the region the output array is the loss column. -/
theorem final3 (hout : ∀ c : Dev nD, LastTileLosses m c) (c : Dev nD) : (dats m 0 c).arrAt 3 cfg0.N = lossCol m c :=
  (dats m 0 c).arrAt_eq_of_cover 3 (lossCol m c) (flushed_eq m hout c) fun i => by
    have hN : cfg0.N = 80 := N_eq
    have h0 : (i 0 : Nat) < 8192 := (i 0).isLt
    have h1 : (i 1 : Nat) < 1 := (i 1).isLt
    have ht : 5 * ((i 0).val / 512) + 4 < cfg0.N := by rw [hN]; omega
    refine ⟨⟨5 * ((i 0).val / 512) + 4, ht⟩, (flush0_3 _).mpr (by show (5 * ((i 0).val / 512) + 4) % 5 = 4; omega), ?_⟩
    show i ∈ ((View.whole main_v9).slice (win0_3.rect ⟨5 * ((i 0).val / 512) + 4, ht⟩)).set
    rw [View.set_slice_whole, Rect.mem_set_unit]
    intro a
    have hi := index3 ⟨5 * ((i 0).val / 512) + 4, ht⟩
    match a with
    | ⟨0, _⟩ =>
      show win0_3.index ⟨5 * ((i 0).val / 512) + 4, ht⟩ 0 * 512 ≤ (i 0 : Nat)
        ∧ (i 0 : Nat) < win0_3.index ⟨5 * ((i 0).val / 512) + 4, ht⟩ 0 * 512 + 512
      rw [hi.1]
      show (5 * ((i 0).val / 512) + 4) / 5 * 512 ≤ (i 0 : Nat) ∧ (i 0 : Nat) < (5 * ((i 0).val / 512) + 4) / 5 * 512 + 512
      omega
    | ⟨1, _⟩ =>
      show win0_3.index ⟨5 * ((i 0).val / 512) + 4, ht⟩ 1 * 1 ≤ (i 1 : Nat)
        ∧ (i 1 : Nat) < win0_3.index ⟨5 * ((i 0).val / 512) + 4, ht⟩ 1 * 1 + 1
      rw [hi.2]
      omega

/-- THE KERNEL'S RUN, READ: if after each row tile's last column tile the output block holds the tile's rows' losses,
    the program ends with its result at the mean of all rows' losses (the sixteen write-backs tile the loss column;
    the host then sums it from `0` and divides by `8192`), the three arguments unchanged. -/
theorem run (hout : ∀ c : Dev nD, LastTileLosses m c) :
    θ_run defs (onTc (τ := τ) (main (F := Ideal))) ⟨m, fun _ => 0, ρ⟩ fun r => ∀ c : Dev nD,
      r.2.mem ((c.tc : Thread nD τ).loc main_v11)
          = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨?_, ?_, ?_, ?_⟩) (run_main m ρ)
  · refine ((h c).2 main_v11 (Pipeline.mem_restRefs_of main_v11 (by decide) (by decide))).trans ?_
    unfold Pipeline.afterTail₀
    show StableHlo.after hostOps1 _ (Proc.devRef .tc main_v11) = _
    after_results
    have harr : Pipeline.withArrays (cfgs 0).spec c (V0 m c) (fun w => (dats m 0 c).arrAt w (cfgs 0).N) (Proc.devRef .tc main_v9)
        = lossCol m c :=
      (Pipeline.withArrays_arr spec0 launch0.win.arr_inj c _ _ 3).trans (final3 m hout c)
    rw [harr]
    funext i
    show Ideal.div (Ideal.hostReduceAdd reducesTo_S8192x1_S_d0_1 (lossFn m c) (Ideal.ofBits .f32 0x00000000#32) i)
        (Ideal.ofBits .f32 0x46000000#32) = _
    rw [Ideal.hostReduceAdd_total reducesTo_S8192x1_S_d0_1 (fun b => b.elim0) (lossFn m c) _ i, Ideal.ofBits_zero_f32]
    have hsum : (∑ j : S8192x1.Idx, lossFn m c j)
        = ∑ R : Fin 8192, rowLossAt (m ((c.tc : Thread nD τ).loc main_arg0)) (m ((c.tc : Thread nD τ).loc main_arg1))
            (m ((c.tc : Thread nD τ).loc main_arg2)) R := by
      refine (sum_idx2 (n0 := 8192) (n1 := 1) (lossFn m c)).trans ?_
      refine Finset.sum_congr rfl fun R _ => ?_
      rw [Fin.sum_univ_one]
      rfl
    rw [hsum]
    rfl
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.KernelIdeal.FocalFinal

end
-- ==== Proof.KernelValue.lean ====
import proofs.«416310_j69758858822546_3_alg».proof.Proof.Spec
import proofs.«416310_j69758858822546_3_alg».proof.Proof.RowMathFinal
import proofs.«416310_j69758858822546_3_alg».proof.Proof.KernelInv
import proofs.«416310_j69758858822546_3_alg».proof.Proof.KernelHost
import proofs.«416310_j69758858822546_3_alg».proof.Proof.KernelFinal

noncomputable section

open scoped BigOperators

namespace Cert.KernelIdeal.FocalKernel

open Idealize.ShloMosaic Idealize.ShloMosaic.TcCoe Idealize.ShloMosaic.ValueIdx Idealize.SL.Sem
open Cert.KernelIdeal Cert.KernelIdeal.Gen Cert.KernelIdeal.FocalBlocks Cert.KernelIdeal.FocalInv Cert.KernelIdeal.FocalHost
open Cert.Focal

variable (m : (ℓ : Loc nD τ sig) → Buf (Elt Ideal) ℓ) (ρ : Dev nD → PrngReg)

/-- THE KERNEL PROGRAM'S VALUE: with real logits and weights and every class a column, it ends with its result at the
    mean of the rows' focal losses, its arguments unchanged. -/
theorem run (hX : ∀ (c : Dev nD) i, ∃ y : ℝ, m ((c.tc : Thread nD τ).loc main_arg0) i = (y : EReal))
    (hW : ∀ (c : Dev nD) i, ∃ y : ℝ, m ((c.tc : Thread nD τ).loc main_arg2) i = (y : EReal))
    (hT : ∀ (c : Dev nD) i, (m ((c.tc : Thread nD τ).loc main_arg1) i).toNat < 32000) :
    θ_run defs (onTc (τ := τ) (main (F := Ideal))) ⟨m, fun _ => 0, ρ⟩ fun r => ∀ c : Dev nD,
      r.2.mem ((c.tc : Thread nD τ).loc main_v11)
          = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine Cert.KernelIdeal.FocalFinal.run m ρ (fun c t h4 r => ?_)
  have hN : cfg0.N = 80 := N_eq
  have htl : t.val < cfg0.N := t.isLt
  obtain ⟨q, hq, ht⟩ : ∃ q, q < 16 ∧ t.val = 5 * q + 4 := ⟨t.val / 5, by omega, by omega⟩
  -- the logits the region finds are the argument's: real numbers
  have hxe : xarr m c = m ((c : Thread nD τ).loc main_arg0) := V_main_arg0 m c
  have hx : ∀ i, ∃ y : ℝ, xarr m c i = (y : EReal) := fun i => by rw [hxe]; exact hX c i
  -- the row's class word and weight, as the host prefix hands them to the region
  have eR : rowAt t r = rowQ q hq r := rowAt_eq t q 4 hq (by omega) ht r
  have etw : tword m c q hq r = m ((c : Thread nD τ).loc main_arg1) (ix1 (rowQ q hq r)) := V_target m c (rowQ q hq r)
  have ew : warr m c (ix2 (rowQ q hq r) (0 : Fin 1))
      = m ((c : Thread nD τ).loc main_arg2) (ix1 (colOf (m ((c : Thread nD τ).loc main_arg1) (ix1 (rowQ q hq r))))) :=
    V_weight m c (hT c) (rowQ q hq r)
  have hlt : (tword m c q hq r).toNat < 32000 := by rw [etw]; exact hT c _
  -- the closing arithmetic on the whole row's three values is the row's loss
  have hfin := lossK_final (xrow m c q hq r) (fun c' => hx (ix2 (rowQ q hq r) c'))
    (warr m c (ix2 (rowQ q hq r) (0 : Fin 1))) (by rw [ew]; exact hW c _) (colOf (tword m c q hq r))
  rw [colOf_val hlt] at hfin
  rw [out_last m c hx t q hq ht r, hfin, eR]
  unfold rowLossAt
  rw [ew, etw]
  show rowLoss (rowOf (xarr m c) (rowQ q hq r)) _ _ = _
  rw [hxe]

end Cert.KernelIdeal.FocalKernel

end
-- ==== Proof.RefLsm.lean ====
import proofs.«416310_j69758858822546_3_alg».proof.Proof.Spec
import proofs.«416310_j69758858822546_3_alg».proof.Proof.RefRead
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.FocalRef

open Idealize.ShloMosaic Idealize.ShloMosaic.TcCoe Idealize.ShloMosaic.ValueIdx Idealize.SL.Sem
open Cert.ReferenceIdeal Cert.ReferenceIdeal.Gen Cert.Focal

/-- The word of `-∞`. -/
private theorem ofBits_negInf : Ideal.ofBits .f32 0xFF800000#32 = (⊥ : EReal) := by
  simp [Ideal.ofBits, Ideal.ieee]

/-- The index of row `R` with column `k` put back. -/
private theorem lift_row (h : S8192x32000.Reduces [1] S8192) (R : Fin 8192) (k : Fin 32000) :
    h.lift (ix1 R) k = ix2 R k := by
  funext c
  match c with
  | ⟨0, _⟩ => exact Fin.ext rfl
  | ⟨1, _⟩ => exact Fin.ext rfl

/-- The row maximum of row `R`, from `-∞`. -/
private theorem v0_at (X : (⟨2, ![8192, 32000]⟩ : Shape).Idx → EReal) (R : Fin 8192) :
    ReadP.val_main_call0_v0 (F := Ideal) X (ix1 R) = rmax (rowOf X R) := by
  unfold ReadP.val_main_call0_v0
  have h : S8192x32000.Reduces [1] S8192 := by decide
  refine (Host.reduce_eq_fold_single (FloatOps.maximumf (F := Ideal) (φ := .f32)) X _ _ h _ (ix1 R)).trans ?_
  show (Finset.univ : Finset (Fin 32000)).fold max (Ideal.ofBits .f32 0xFF800000#32) (fun k => X (h.lift (ix1 R) k)) = _
  rw [ofBits_negInf]
  unfold rmax rowOf
  exact congrArg (fun f : Fin 32000 → EReal => (Finset.univ : Finset (Fin 32000)).fold max ⊥ f)
    (funext fun k => congrArg X (lift_row h R k))

/-- The row maximum taken against `-∞` once more. -/
private theorem v2_at (X : (⟨2, ![8192, 32000]⟩ : Shape).Idx → EReal) (R : Fin 8192) :
    ReadP.val_main_call0_v2 (F := Ideal) X (ix1 R) = max ⊥ (rmax (rowOf X R)) := by
  rw [ReadP.val_main_call0_v2_apply, ReadP.val_main_call0_v1_apply, ReadP.val_main_call0_cst_0_apply, v0_at]
  show max (Ideal.ofBits .f32 0xFF800000#32) _ = _
  rw [ofBits_negInf]

/-- That maximum spread over the row's columns. -/
private theorem v4_at (X : (⟨2, ![8192, 32000]⟩ : Shape).Idx → EReal) (R : Fin 8192) (c : Fin 32000) :
    ReadP.val_main_call0_v4 (F := Ideal) X (ix2 R c) = max ⊥ (rmax (rowOf X R)) := by
  have e4 : ReadP.idx_main_call0_v4 (ix2 R c) = ix2 R (0 : Fin 1) :=
    funext fun a => Fin.ext (by match a with | ⟨0, _⟩ => rfl | ⟨1, _⟩ => rfl)
  have e3 : ReadP.idx_main_call0_v3 (ix2 R (0 : Fin 1)) = ix1 R :=
    funext fun a => Fin.ext (by match a with | ⟨0, _⟩ => rfl)
  rw [ReadP.val_main_call0_v4_apply, e4, ReadP.val_main_call0_v3_apply, e3, v2_at]

/-- The logit minus the row's maximum. -/
private theorem v5_at (X : (⟨2, ![8192, 32000]⟩ : Shape).Idx → EReal) (R : Fin 8192) (c : Fin 32000) :
    ReadP.val_main_call0_v5 (F := Ideal) X (ix2 R c) = X (ix2 R c) - max ⊥ (rmax (rowOf X R)) := by
  rw [ReadP.val_main_call0_v5_apply, v4_at]
  exact Ideal.subf_def _ _

/-- The row's sum of exponentials, from `0`. -/
private theorem v7_at (X : (⟨2, ![8192, 32000]⟩ : Shape).Idx → EReal) (R : Fin 8192) :
    ReadP.val_main_call0_v7 (F := Ideal) X (ix1 R) = 0 + rsumexp (rowOf X R) (max ⊥ (rmax (rowOf X R))) := by
  rw [ReadP.val_main_call0_v7_apply, ReadP.val_main_call0_cst_1_apply]
  refine congrArg₂ (· + ·) Ideal.ofBits_zero_f32 ?_
  unfold rsumexp
  refine Finset.sum_congr rfl fun k _ => ?_
  have e7 : ReadP.idx_main_call0_v7 (ix1 R) k = ix2 R k :=
    funext fun a => Fin.ext (by match a with | ⟨0, _⟩ => rfl | ⟨1, _⟩ => rfl)
  rw [ReadP.val_main_call0_v6_apply, e7, v5_at]
  exact Ideal.hostUnary_exp_def _

/-- The logarithm of that sum, spread over the row's columns. -/
private theorem v10_at (X : (⟨2, ![8192, 32000]⟩ : Shape).Idx → EReal) (R : Fin 8192) (c : Fin 32000) :
    ReadP.val_main_call0_v10 (F := Ideal) X (ix2 R c) = Ideal.log (0 + rsumexp (rowOf X R) (max ⊥ (rmax (rowOf X R)))) := by
  have e10 : ReadP.idx_main_call0_v10 (ix2 R c) = ix2 R (0 : Fin 1) :=
    funext fun a => Fin.ext (by match a with | ⟨0, _⟩ => rfl | ⟨1, _⟩ => rfl)
  have e8 : ReadP.idx_main_call0_v8 (ix2 R (0 : Fin 1)) = ix1 R :=
    funext fun a => Fin.ext (by match a with | ⟨0, _⟩ => rfl)
  rw [ReadP.val_main_call0_v10_apply, e10, ReadP.val_main_call0_v9_apply, ReadP.val_main_call0_v8_apply, e8, v7_at]
  exact Ideal.hostUnary_log_def _

/-- The reference's log-softmax stage at row `R`, column `cc`: the logit minus the row's maximum (taken against `-∞` once
    more) minus the logarithm of the row's sum of exponentials (from `0`). -/
theorem val_main_v0_at (X : (⟨2, ![8192, 32000]⟩ : Shape).Idx → EReal) (R : Fin 8192) (cc : Fin 32000) :
    Cert.ReferenceIdeal.ReadP.val_main_v0 (F := Ideal) X (ix2 R cc) = lsm (rowOf X R) cc := by
  rw [ReadP.val_main_v0_apply, v5_at, v10_at]
  unfold lsm
  exact Ideal.subf_def _ _

end Cert.ReferenceIdeal.FocalRef

end
-- ==== Proof.RefGather.lean ====
import proofs.«416310_j69758858822546_3_alg».proof.Proof.Spec
import proofs.«416310_j69758858822546_3_alg».proof.Proof.RefRead
import Idealize.ShloMosaic.Lib.ValueIdx
import Idealize.ShloMosaic.Lib.ValueLayout
import Idealize.ShloMosaic.Lib.Pipeline.Value
import Idealize.ShloMosaic.Lib.StableHlo.Predicate

noncomputable section

open scoped BigOperators

namespace Cert.ReferenceIdeal.FocalRef

open Idealize.ShloMosaic Idealize.ShloMosaic.TcCoe Idealize.ShloMosaic.ValueIdx Idealize.SL.Sem
open Cert.ReferenceIdeal Cert.ReferenceIdeal.Gen Cert.Focal

/-- The rank-1 index at a coordinate, in its two spellings. -/
private theorem ofFin_eq_ix1 {n : Nat} (k : Fin n) : Shape.Idx.ofFin k = ix1 k := by
  funext a
  match a with
  | ⟨0, _⟩ => exact Fin.ext rfl

/-- Row `p` of a one-column rectangle, in its two spellings. -/
private theorem ixP_eq_ix2 {n : Nat} (p : Fin n) : StableHlo.Predicate.ixP p = ix2 p (0 : Fin 1) := by
  funext a
  match a with
  | ⟨0, _⟩ => rfl
  | ⟨1, _⟩ => rfl

/-- A word below 32000 is not negative as a signed integer: the test `t < 0` is 0 at it. -/
private theorem slt_zero_eq (w : BitVec 32) (hw : w.toNat < 32000) : IntOp.cmpi .slt w 0#32 = 0#1 := by
  refine eq_zero_of_ne_one fun h1 => ?_
  rw [StableHlo.Predicate.slt_iff_toNat (by omega) (by decide)] at h1
  have h0 : (0#32 : BitVec 32).toNat = 0 := rfl
  omega

/-- A small word read signed and clamped into [0, n − 1] is its value when that is below n. -/
private theorem clamp_small (w : BitVec 32) (n : Nat) (hw : w.toNat < n) (hn : n ≤ 32000) :
    min w.toInt.toNat (n - 1) = w.toNat := by
  rw [StableHlo.Predicate.toInt_eq_toNat_of_lt (by omega), Int.toNat_natCast]
  omega

/-- A vector of words with jnp's wrap of a negative index (`t < 0 ? t + k : t`), laid as a column: at (R, 0) it is the
    word of row R when that word is not negative — the wrap's test fails and the select keeps the word. -/
private theorem wrapped_word (T : IVec ⟨1, ![8192]⟩ 32) (k : BitVec 32)
    (h0 : (⟨0, ![]⟩ : Shape).BroadcastsInDim ⟨1, ![8192]⟩ ![])
    (h1 : (⟨1, ![8192]⟩ : Shape).BroadcastsInDim ⟨2, ![8192, 1]⟩ ![0])
    (R : Fin 8192) (hR : (T (ix1 R)).toNat < 32000) :
    broadcastInDim ⟨2, ![8192, 1]⟩ ![0] h1
        (select (cmpi .slt T (broadcastInDim ⟨1, ![8192]⟩ ![] h0 (constantI ⟨0, ![]⟩ 32 0#32)))
          (addi T (broadcastInDim ⟨1, ![8192]⟩ ![] h0 (constantI ⟨0, ![]⟩ 32 k))) T) (ix2 R (0 : Fin 1))
      = T (ix1 R) := by
  rw [← ixP_eq_ix2, StableHlo.Predicate.bcast_col1, ofFin_eq_ix1, select_apply]
  have hs : cmpi .slt T (broadcastInDim ⟨1, ![8192]⟩ ![] h0 (constantI ⟨0, ![]⟩ 32 0#32)) (ix1 R) = 0#1 :=
    slt_zero_eq (T (ix1 R)) hR
  rw [hs, select_zero]

/-- THE TWO-AXIS TAKE. A gather from an [N × M] operand whose start indices are an [n × 2] table of (row, column) pairs,
    both operand axes collapsed and start-indexed, the index vector on axis 1: result position `p` reads the operand at
    the pair in row `p` of the table, each component read signed and clamped into its axis. -/
private theorem gather_take2 {α : Type} {N M n w : Nat} (d : GatherDims ⟨2, ![N, M]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![N, M]⟩ : Shape).Idx → α) (idx : IVec ⟨2, ![n, 2]⟩ w) (p : Fin n) (hN : 0 < N) (hM : 0 < M) :
    Host.gather d x idx (ix1 p)
      = x (ix2 ⟨min (idx (ix2 p (0 : Fin 2))).toInt.toNat (N - 1), by omega⟩
               ⟨min (idx (ix2 p (1 : Fin 2))).toInt.toNat (M - 1), by omega⟩) := by
  unfold Host.gather
  congr 1
  funext a
  apply Fin.ext
  have hb : ∀ a : Fin 2, a ∉ d.operandBatchingDims := fun a => by rw [hob]; exact List.not_mem_nil
  have hk : ∀ a : Fin 2, a ∉ d.sKept := fun a => by
    rw [GatherDims.mem_sKept, hcoll]
    intro h
    apply h.1
    match a with
    | ⟨0, _⟩ => exact List.mem_cons_self
    | ⟨1, _⟩ => exact List.mem_cons_of_mem _ List.mem_cons_self
  have hsl : ∀ a : Fin 2, d.sliceSizes a = 1 := fun a => d.slice_collapsed a (by
    rw [hcoll]
    match a with
    | ⟨0, _⟩ => exact List.mem_cons_self
    | ⟨1, _⟩ => exact List.mem_cons_of_mem _ List.mem_cons_self)
  show d.start (ix1 p) idx a + d.batchCoord (ix1 p) a + d.offCoord (ix1 p) a = _
  rw [GatherDims.batchCoord_eq_zero _ _ _ (hb a), GatherDims.offCoord_eq_zero _ _ _ (hk a), Nat.add_zero]
  -- component `q` of result position `p`'s start index is read at (p, q)
  have hsi : ∀ (c : Fin d.startIndexMap.length) (q : Fin 2), c.val = q.val → d.siIdx (ix1 p) c = ix2 p q := by
    intro c q hcq
    funext b
    apply Fin.ext
    match b with
    | ⟨0, _⟩ =>
      unfold GatherDims.siIdx
      rw [dif_neg (by rw [hivd]; exact Nat.zero_ne_one)]
      unfold GatherDims.siCoord
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold GatherDims.siIdx
      rw [dif_pos (by rw [hivd])]
      exact hcq
  unfold GatherDims.start
  match a with
  | ⟨0, _⟩ =>
    rw [dif_pos (by rw [hsim]; exact List.mem_cons_self)]
    rw [hsi _ (0 : Fin 2) (by show List.idxOf _ d.startIndexMap = 0; rw [hsim]; rfl), hsl]
    rfl
  | ⟨1, _⟩ =>
    rw [dif_pos (by rw [hsim]; exact List.mem_cons_of_mem _ List.mem_cons_self)]
    rw [hsi _ (1 : Fin 2) (by show List.idxOf _ d.startIndexMap = 1; rw [hsim]; rfl), hsl]
    rfl

/-- The reference's gather of the log-softmax at (row, class): with every class a column, entry `R` is the log-softmax
    stage at row `R` and the column of row `R`'s class (neither index is negative, so nothing wraps, and both are in
    range, so nothing is clamped). -/
theorem val_main_v15_at (X : (⟨2, ![8192, 32000]⟩ : Shape).Idx → EReal) (T : (⟨1, ![8192]⟩ : Shape).Idx → BitVec 32)
    (hT : ∀ i, (T i).toNat < 32000) (R : Fin 8192) :
    Cert.ReferenceIdeal.ReadP.val_main_v15 (F := Ideal) X T (ix1 R)
      = Cert.ReferenceIdeal.ReadP.val_main_v0 (F := Ideal) X (ix2 R (colOf (T (ix1 R)))) := by
  have hR := hT (ix1 R)
  have hRlt := R.isLt
  -- the row word: the iota at R, never negative
  have hrow : (BitVec.ofNat 32 R.val).toNat = R.val := by
    rw [BitVec.toNat_ofNat]; exact Nat.mod_eq_of_lt (by omega)
  -- the start pair of row R: (R, the class word)
  have h0 : ReadP.val_main_v14 (F := Ideal) T (ix2 R (0 : Fin 2)) = BitVec.ofNat 32 R.val := by
    have e : ReadP.val_main_v14 (F := Ideal) T (ix2 R (0 : Fin 2)) = ReadP.val_main_v12 (F := Ideal) (ix2 R (0 : Fin 1)) :=
      concatenate_pair_apply_left (t := S8192x2) (s₁ := S8192x1) (s₂ := S8192x1) (1 : Fin 2) (ReadP.val_main_v12 (F := Ideal))
        (ReadP.val_main_v13 (F := Ideal) T) concatenates_S8192x1_S8192x1_S8192x2_d1 (ix2 R (0 : Fin 2)) rfl
        (ix2 R (0 : Fin 1)) (fun b => match b with | ⟨0, _⟩ => rfl | ⟨1, _⟩ => rfl)
    rw [e]
    exact wrapped_word (ReadP.val_main_v1 (F := Ideal)) 8192#32 _ _ R (by
      show (BitVec.ofNat 32 R.val).toNat < 32000
      omega)
  have h1 : ReadP.val_main_v14 (F := Ideal) T (ix2 R (1 : Fin 2)) = T (ix1 R) := by
    have e : ReadP.val_main_v14 (F := Ideal) T (ix2 R (1 : Fin 2)) = ReadP.val_main_v13 (F := Ideal) T (ix2 R (0 : Fin 1)) :=
      concatenate_pair_apply_right (t := S8192x2) (s₁ := S8192x1) (s₂ := S8192x1) (1 : Fin 2) (ReadP.val_main_v12 (F := Ideal))
        (ReadP.val_main_v13 (F := Ideal) T) concatenates_S8192x1_S8192x1_S8192x2_d1 (ix2 R (1 : Fin 2)) rfl rfl
        (ix2 R (0 : Fin 1)) (fun b => match b with | ⟨0, _⟩ => fun _ => rfl | ⟨1, _⟩ => fun hne => absurd rfl hne) rfl
    rw [e]
    exact wrapped_word T 32000#32 _ _ R hR
  show Host.gather gather_S8192x32000_S8192x2_S8192_n_01_n_n_01_1_11 (ReadP.val_main_v0 (F := Ideal) X)
      (ReadP.val_main_v14 (F := Ideal) T) (ix1 R) = _
  refine (gather_take2 _ rfl rfl rfl rfl _ _ R (by decide) (by decide)).trans ?_
  refine congrArg _ (congrArg₂ ix2 (Fin.ext ?_) (Fin.ext ?_))
  · show min (BitVec.toInt _).toNat (8192 - 1) = R.val
    rw [h0, clamp_small _ 8192 (by omega) (by decide), hrow]
  · show min (BitVec.toInt _).toNat (32000 - 1) = min (T (ix1 R)).toNat 31999
    rw [h1, clamp_small _ 32000 hR (by decide)]
    omega

/-- The reference's gather of the weights at the classes: entry `R` is the weight of row `R`'s class. -/
theorem val_main_v23_at (T : (⟨1, ![8192]⟩ : Shape).Idx → BitVec 32) (W : (⟨1, ![32000]⟩ : Shape).Idx → EReal)
    (hT : ∀ i, (T i).toNat < 32000) (R : Fin 8192) :
    Cert.ReferenceIdeal.ReadP.val_main_v23 (F := Ideal) T W (ix1 R) = W (ix1 (colOf (T (ix1 R)))) := by
  have hR := hT (ix1 R)
  have hidx : ReadP.val_main_v22 (F := Ideal) T (StableHlo.Predicate.ixP R) = T (ix1 R) := by
    rw [ixP_eq_ix2]
    exact wrapped_word T 32000#32 _ _ R hR
  show Host.gather gather_S32000_S8192x1_S8192_n_0_n_n_0_1_1 W (ReadP.val_main_v22 (F := Ideal) T) (ix1 R) = _
  conv_lhs => rw [← ofFin_eq_ix1 R]
  refine (StableHlo.Predicate.gather_take _ rfl rfl rfl rfl W _ R (by decide)).trans ?_
  rw [ofFin_eq_ix1]
  refine congrArg W (congrArg ix1 (Fin.ext ?_))
  show min (BitVec.toInt _).toNat (32000 - 1) = min (T (ix1 R)).toNat 31999
  rw [hidx, clamp_small _ 32000 hR (by decide)]
  omega

end Cert.ReferenceIdeal.FocalRef

end
-- ==== Proof.RefValue.lean ====
import proofs.«416310_j69758858822546_3_alg».proof.Proof.Spec
import proofs.«416310_j69758858822546_3_alg».proof.Proof.RowMathFinal
import proofs.«416310_j69758858822546_3_alg».proof.Proof.RefRun
import proofs.«416310_j69758858822546_3_alg».proof.Proof.RefRead
import proofs.«416310_j69758858822546_3_alg».proof.Proof.RefLsm
import proofs.«416310_j69758858822546_3_alg».proof.Proof.RefGather
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.FocalRef

open Idealize.ShloMosaic Idealize.ShloMosaic.TcCoe Idealize.ShloMosaic.ValueIdx Idealize.SL.Sem
open Cert.ReferenceIdeal Cert.ReferenceIdeal.Gen Cert.Focal

/-- The rank-1 index set of `8192` entries is `Fin 8192`: an index is its one coordinate. -/
private def idxEquiv1 : (⟨1, ![8192]⟩ : Shape).Idx ≃ Fin 8192 where
  toFun i := i 0
  invFun R := ix1 R
  left_inv i := (eq_ix1 i).symm
  right_inv _ := rfl

/-- The word `0x3F800000` denotes `1`. -/
private theorem ofBits_one : Ideal.ofBits .f32 0x3F800000#32 = (1 : EReal) := by
  simp [Ideal.ofBits, Ideal.ieee, -EReal.coe_mul]; norm_num

/-- The word `0x40000000` denotes `2`. -/
private theorem ofBits_two : Ideal.ofBits .f32 0x40000000#32 = ((2 : ℝ) : EReal) := by
  simp [Ideal.ofBits, Ideal.ieee, -EReal.coe_mul]; norm_num

/-- Row `R`'s term of the reference's sum is the row's loss. -/
private theorem term_at (X : (⟨2, ![8192, 32000]⟩ : Shape).Idx → EReal) (T : (⟨1, ![8192]⟩ : Shape).Idx → BitVec 32)
    (W : (⟨1, ![32000]⟩ : Shape).Idx → EReal)
    (hX : ∀ i, ∃ y : ℝ, X i = (y : EReal)) (hW : ∀ i, ∃ y : ℝ, W i = (y : EReal)) (hT : ∀ i, (T i).toNat < 32000)
    (R : Fin 8192) :
    Cert.ReferenceIdeal.ReadP.val_main_v30 (F := Ideal) X T W (ix1 R) = rowLossAt X T W R := by
  rw [ReadP.val_main_v30_apply, ReadP.val_main_v29_apply, ReadP.val_main_v24_apply, ReadP.val_main_v28_apply,
    ReadP.val_main_v26_apply, ReadP.val_main_v25_apply, ReadP.val_main_cst_apply, ReadP.val_main_v16_apply,
    ReadP.val_main_v27_apply, ReadP.val_main_cst_5_apply, val_main_v23_at T W hT R, val_main_v15_at X T hT R,
    val_main_v0_at]
  simp only [Ideal.mulf_def, Ideal.hostNegf_def, Ideal.negf_def, Ideal.hostPowf_def, Ideal.subf_def,
    Ideal.hostUnary_exp_def, Ideal.ofBits_def, ofBits_one, ofBits_two]
  unfold rowLossAt
  exact lossR_eq (rowOf X R) (fun c' => hX (ix2 R c')) _ (hW _) _

/-- The reference's last stage, as a function of the three arrays, is the mean of the rows' focal losses: with real logits
    and weights and every class a column, each row's `-w · (1 - p) ^ 2 · log p` of the log-softmax at the gathered entry is
    the row's loss (the gather's wrap and clamp do not move a class that is a column). -/
theorem val_eq_G (X : (⟨2, ![8192, 32000]⟩ : Shape).Idx → EReal) (T : (⟨1, ![8192]⟩ : Shape).Idx → BitVec 32)
    (W : (⟨1, ![32000]⟩ : Shape).Idx → EReal)
    (hX : ∀ i, ∃ y : ℝ, X i = (y : EReal)) (hW : ∀ i, ∃ y : ℝ, W i = (y : EReal)) (hT : ∀ i, (T i).toNat < 32000) :
    Cert.ReferenceIdeal.ReadP.val_main_v32 (F := Ideal) X T W = G X T W := by
  funext i
  rw [ReadP.val_main_v32_apply, ReadP.val_main_v31_apply, ReadP.val_main_cst_6_apply, ReadP.val_main_cst_7_apply]
  simp only [Ideal.hostDivf_def, Ideal.ofBits_def, Ideal.ofBits_zero_f32]
  unfold G
  rw [← Equiv.sum_comp idxEquiv1.symm]
  exact congrArg (fun s => Ideal.div (0 + s) (Ideal.ofBits .f32 0x46000000#32))
    (Finset.sum_congr rfl fun R _ => term_at X T W hX hW hT R)

variable (m : (ℓ : Loc nD τ sig) → Buf (Elt Ideal) ℓ) (ρ : Dev nD → PrngReg)

/-- THE REFERENCE PROGRAM'S VALUE: under the same three facts it ends with its result at the same mean, its arguments
    unchanged. -/
theorem run (hX : ∀ (c : Dev nD) i, ∃ y : ℝ, m ((c.tc : Thread nD τ).loc main_arg0) i = (y : EReal))
    (hW : ∀ (c : Dev nD) i, ∃ y : ℝ, m ((c.tc : Thread nD τ).loc main_arg2) i = (y : EReal))
    (hT : ∀ (c : Dev nD) i, (m ((c.tc : Thread nD τ).loc main_arg1) i).toNat < 32000) :
    θ_run defs (onTc (τ := τ) (main (F := Ideal))) ⟨m, fun _ => 0, ρ⟩ fun r => ∀ c : Dev nD,
      r.2.mem ((c.tc : Thread nD τ).loc main_v32)
          = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Cert.ReferenceIdeal.ValueP.run (F := Ideal) m ρ)
  rw [Cert.ReferenceIdeal.ReadP.val_main_v32_eq]
  exact val_eq_G _ _ _ (hX c) (hW c) (hT c)

end Cert.ReferenceIdeal.FocalRef

end
-- ==== Proof.lean ====
/-
  The certificate of the focal-loss kernel against its reference: both compute the mean over 8192 rows of
  `-w · (1 - p)² · log p`, `p` the softmax probability of the row's class, `w` the class's weight.

  The kernel walks each row tile's 32000 columns in five tiles of 6400, carrying the running maximum, the running sum
  of exponentials (rescaled whenever the maximum grows) and the class's logit (selected by comparing column numbers
  with the class), and closes with the loss on the last tile; the reference takes a log-softmax, gathers it at
  (row, class), and applies the same formula with `(1 - p) ^ 2.0`.  Over the extended reals the two agree when the
  logits and weights are real numbers (the online rescaling is `exp (a + b) = exp a · exp b`, and the kernel's two clamps
  are identities because `log p ≤ 0`) and every class is a column of the logits (then exactly one column matches in the
  kernel's selection, and the reference's gather neither wraps nor clamps): that is the precondition.

  The frames of the two kernel programs are the generated ones; the reference's frame is its run with the result dropped.
  The values: Proof/KernelValue.lean (the kernel program ends at the mean of the rows' losses) and Proof/RefValue.lean
  (so does the reference), both stated with the one function `Cert.Focal.G` of Proof/Spec.lean.
-/
import proofs.«416310_j69758858822546_3_alg».proof.Defs
import proofs.«416310_j69758858822546_3_alg».proof.Proof.Gen.Kernel
import proofs.«416310_j69758858822546_3_alg».proof.Proof.Gen.Kernel.Frame
import proofs.«416310_j69758858822546_3_alg».proof.Proof.Gen.KernelIdeal
import proofs.«416310_j69758858822546_3_alg».proof.Proof.Gen.KernelIdeal.Frame
import proofs.«416310_j69758858822546_3_alg».proof.Proof.Gen.ReferenceIdeal
import proofs.«416310_j69758858822546_3_alg».proof.Proof.Gen.Pre_finite_inputs
import proofs.«416310_j69758858822546_3_alg».proof.Proof.Spec
import proofs.«416310_j69758858822546_3_alg».proof.Proof.PreDecode
import proofs.«416310_j69758858822546_3_alg».proof.Proof.KernelValue
import proofs.«416310_j69758858822546_3_alg».proof.Proof.RefValue
import Idealize.ShloMosaic.Adequacy
import Idealize.ShloMosaic.Init

noncomputable section

namespace Cert.Proof

open Idealize.ShloMosaic Idealize.SL.Sem Cert.Focal

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Under the precondition both idealized programs end at the mean of the rows' losses of arguments that agree. -/
theorem algebraic : Cert.algebraic_KernelIdeal_ReferenceIdeal := by
  intro m ρ m' ρ' hpre hagree
  -- what the precondition says of the kernel program's three arrays, on every device
  have hX := fun c => (decode _ _ _ (hpre c)).1
  have hW := fun c => (decode _ _ _ (hpre c)).2.1
  have hT := fun c => (decode _ _ _ (hpre c)).2.2
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.FocalKernel.run m ρ hX hW hT, ?_⟩
  -- the reference's arrays are the same arrays
  refine (θ_run Cert.ReferenceIdeal.defs _ _).mono (fun _ h c => ⟨(h c).1.trans ?_, (h c).2⟩)
    (Cert.ReferenceIdeal.FocalRef.run m' ρ'
      (fun c => by rw [(hagree c).1]; exact hX c) (fun c => by rw [(hagree c).2.2]; exact hW c)
      (fun c => by rw [(hagree c).2.1]; exact hT c))
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
